-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4194304x3 : Shape := ⟨2, ![4194304, 3]⟩
abbrev S4194304x3x3 : Shape := ⟨3, ![4194304, 3, 3]⟩
abbrev S_ : Shape := ⟨0, ![]⟩

class Facts : Prop where
  bcast_S_S4194304x3 : S_.BroadcastsInDim S4194304x3 (![] : Fin 0 → Fin S4194304x3.rank)
  reducesTo_S4194304x3_S_d0_1 : S4194304x3.ReducesTo [0, 1] S_
  h_S_ : 0 < S_.numel
  bcast_S_S4194304x3x3 : S_.BroadcastsInDim S4194304x3x3 (![] : Fin 0 → Fin S4194304x3x3.rank)
  reducesTo_S4194304x3x3_S_d0_1_2 : S4194304x3x3.ReducesTo [0, 1, 2] S_

variable [Facts]

def fn {F : FTy → Type} [FloatOps F] (main_arg0 : FVec F S4194304x3 .f32) (main_arg1 : FVec F S4194304x3x3 .f32) : IVec S_ 1 :=
  let main_v0 : FVec F S4194304x3 .f32 := Host.absf main_arg0
  let main_cst : FVec F S_ .f32 := constant S_ .f32 0x7F800000#32
  let main_v1 : FVec F S4194304x3 .f32 := broadcastInDim S4194304x3 ![] bcast_S_S4194304x3 main_cst
  let main_v2 : IVec S4194304x3 1 := cmpf .olt main_v0 main_v1
  let main_c : IVec S_ 1 := constantI S_ 1 1#1
  let main_v3 : IVec S_ 1 := (fun x v => Host.reduce IntOp.andi x v reducesTo_S4194304x3_S_d0_1 h_S_) main_v2 main_c
  let main_v4 : FVec F S4194304x3x3 .f32 := Host.absf main_arg1
  let main_cst_0 : FVec F S_ .f32 := constant S_ .f32 0x7F800000#32
  let main_v5 : FVec F S4194304x3x3 .f32 := broadcastInDim S4194304x3x3 ![] bcast_S_S4194304x3x3 main_cst_0
  let main_v6 : IVec S4194304x3x3 1 := cmpf .olt main_v4 main_v5
  let main_c_1 : IVec S_ 1 := constantI S_ 1 1#1
  let main_v7 : IVec S_ 1 := (fun x v => Host.reduce IntOp.andi x v reducesTo_S4194304x3x3_S_d0_1_2 h_S_) main_v6 main_c_1
  let main_v8 : IVec S_ 1 := andi main_v3 main_v7
  main_v8
-- ==== Kernel.lean ====
abbrev S4194304x3 : Shape := ⟨2, ![4194304, 3]⟩
abbrev S4194304x3x3 : Shape := ⟨3, ![4194304, 3, 3]⟩
abbrev S4194304x9 : Shape := ⟨2, ![4194304, 9]⟩
abbrev S4096x3 : Shape := ⟨2, ![4096, 3]⟩
abbrev S4096x9 : Shape := ⟨2, ![4096, 9]⟩
abbrev S3x4096 : Shape := ⟨2, ![3, 4096]⟩
abbrev S9x4096 : Shape := ⟨2, ![9, 4096]⟩
abbrev S1x4096 : Shape := ⟨2, ![1, 4096]⟩

abbrev nBuf : Space → Nat
  | .hbm => 6
  | .vmem => 10
  | .smem => 0
  | _ => 0

abbrev bufTy : (tb : Table) → Fin (tcTables nBuf tb) → BufTy
  | .hbm, ⟨0, _⟩ => ⟨S4194304x3, .f32⟩
  | .hbm, ⟨1, _⟩ => ⟨S4194304x3x3, .f32⟩
  | .hbm, ⟨2, _⟩ => ⟨S4194304x9, .f32⟩
  | .hbm, ⟨3, _⟩ => ⟨S4194304x3, .f32⟩
  | .hbm, ⟨4, _⟩ => ⟨S4194304x9, .f32⟩
  | .hbm, ⟨5, _⟩ => ⟨S4194304x3x3, .f32⟩
  | .local _ .vmem, ⟨0, _⟩ => ⟨S4096x3, .f32⟩
  | .local _ .vmem, ⟨1, _⟩ => ⟨S4096x3, .f32⟩
  | .local _ .vmem, ⟨2, _⟩ => ⟨S4096x9, .f32⟩
  | .local _ .vmem, ⟨3, _⟩ => ⟨S4096x9, .f32⟩
  | .local _ .vmem, ⟨4, _⟩ => ⟨S4096x3, .f32⟩
  | .local _ .vmem, ⟨5, _⟩ => ⟨S4096x3, .f32⟩
  | .local _ .vmem, ⟨6, _⟩ => ⟨S4096x9, .f32⟩
  | .local _ .vmem, ⟨7, _⟩ => ⟨S4096x9, .f32⟩
  | .local _ .vmem, ⟨8, _⟩ => ⟨S3x4096, .f32⟩
  | .local _ .vmem, ⟨9, _⟩ => ⟨S9x4096, .f32⟩
  | _, _ => ⟨S4194304x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x9 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4194304x3x3_S4194304x9 : S4194304x3x3.ShapeCasts S4194304x9
  inb_S4096x3_S4096x3_0_0 : ∀ a, (![0, 0] : Fin 2 → Nat) a + S4096x3.size a ≤ S4096x3.size a
  h_S4096x3 : 0 < S4096x3.numel
  inb_S4096x9_S4096x9_0_0 : ∀ a, (![0, 0] : Fin 2 → Nat) a + S4096x9.size a ≤ S4096x9.size a
  h_S4096x9 : 0 < S4096x9.numel
  shapeCasts_S4096x9_S4096x9 : S4096x9.ShapeCasts S4096x9
  transposes_S4096x3_p1_0_S3x4096 : S4096x3.Transposes [1, 0] S3x4096
  transposes_S4096x9_p1_0_S9x4096 : S4096x9.Transposes [1, 0] S9x4096
  slices_S3x4096_o0_0_S1x4096 : S3x4096.Slices ![0, 0] S1x4096
  slices_S3x4096_o1_0_S1x4096 : S3x4096.Slices ![1, 0] S1x4096
  slices_S3x4096_o2_0_S1x4096 : S3x4096.Slices ![2, 0] S1x4096
  inb_S3x4096_S1x4096_0_0 : ∀ a, (![0, 0] : Fin 2 → Nat) a + S1x4096.size a ≤ S3x4096.size a
  h_S1x4096 : 0 < S1x4096.numel
  shapeCasts_S1x4096_S1x4096 : S1x4096.ShapeCasts S1x4096
  inb_S3x4096_S1x4096_1_0 : ∀ a, (![1, 0] : Fin 2 → Nat) a + S1x4096.size a ≤ S3x4096.size a
  inb_S3x4096_S1x4096_2_0 : ∀ a, (![2, 0] : Fin 2 → Nat) a + S1x4096.size a ≤ S3x4096.size a
  inb_S3x4096_S3x4096_0_0 : ∀ a, (![0, 0] : Fin 2 → Nat) a + S3x4096.size a ≤ S3x4096.size a
  h_S3x4096 : 0 < S3x4096.numel
  transposes_S3x4096_p1_0_S4096x3 : S3x4096.Transposes [1, 0] S4096x3
  slices_S9x4096_o0_0_S1x4096 : S9x4096.Slices ![0, 0] S1x4096
  slices_S9x4096_o1_0_S1x4096 : S9x4096.Slices ![1, 0] S1x4096
  slices_S9x4096_o2_0_S1x4096 : S9x4096.Slices ![2, 0] S1x4096
  slices_S9x4096_o3_0_S1x4096 : S9x4096.Slices ![3, 0] S1x4096
  slices_S9x4096_o4_0_S1x4096 : S9x4096.Slices ![4, 0] S1x4096
  slices_S9x4096_o5_0_S1x4096 : S9x4096.Slices ![5, 0] S1x4096
  slices_S9x4096_o6_0_S1x4096 : S9x4096.Slices ![6, 0] S1x4096
  slices_S9x4096_o7_0_S1x4096 : S9x4096.Slices ![7, 0] S1x4096
  slices_S9x4096_o8_0_S1x4096 : S9x4096.Slices ![8, 0] S1x4096
  inb_S9x4096_S1x4096_0_0 : ∀ a, (![0, 0] : Fin 2 → Nat) a + S1x4096.size a ≤ S9x4096.size a
  inb_S9x4096_S1x4096_1_0 : ∀ a, (![1, 0] : Fin 2 → Nat) a + S1x4096.size a ≤ S9x4096.size a
  inb_S9x4096_S1x4096_2_0 : ∀ a, (![2, 0] : Fin 2 → Nat) a + S1x4096.size a ≤ S9x4096.size a
  inb_S9x4096_S1x4096_3_0 : ∀ a, (![3, 0] : Fin 2 → Nat) a + S1x4096.size a ≤ S9x4096.size a
  inb_S9x4096_S1x4096_4_0 : ∀ a, (![4, 0] : Fin 2 → Nat) a + S1x4096.size a ≤ S9x4096.size a
  inb_S9x4096_S1x4096_5_0 : ∀ a, (![5, 0] : Fin 2 → Nat) a + S1x4096.size a ≤ S9x4096.size a
  inb_S9x4096_S1x4096_6_0 : ∀ a, (![6, 0] : Fin 2 → Nat) a + S1x4096.size a ≤ S9x4096.size a
  inb_S9x4096_S1x4096_7_0 : ∀ a, (![7, 0] : Fin 2 → Nat) a + S1x4096.size a ≤ S9x4096.size a
  inb_S9x4096_S1x4096_8_0 : ∀ a, (![8, 0] : Fin 2 → Nat) a + S1x4096.size a ≤ S9x4096.size a
  inb_S9x4096_S9x4096_0_0 : ∀ a, (![0, 0] : Fin 2 → Nat) a + S9x4096.size a ≤ S9x4096.size a
  h_S9x4096 : 0 < S9x4096.numel
  transposes_S9x4096_p1_0_S4096x9 : S9x4096.Transposes [1, 0] S4096x9
  shapeCasts_S4194304x9_S4194304x3x3 : S4194304x9.ShapeCasts S4194304x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x3.size a ≤ S4194304x3.size a
  hwx0_0 : ∀ i : grid0.Coords, EltTy.bits .f32 = 32 ∨ (Rect.block (s := S4194304x3) S4096x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x9.size a ≤ S4194304x9.size a
  hwx0_1 : ∀ i : grid0.Coords, EltTy.bits .f32 = 32 ∨ (Rect.block (s := S4194304x9) S4096x9.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x3.size a ≤ S4194304x3.size a
  hwx0_2 : ∀ i : grid0.Coords, EltTy.bits .f32 = 32 ∨ (Rect.block (s := S4194304x3) S4096x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x9.size a ≤ S4194304x9.size a
  hwx0_3 : ∀ i : grid0.Coords, EltTy.bits .f32 = 32 ∨ (Rect.block (s := S4194304x9) S4096x9.size (cc0_transform_3 i) (hinb0_3 i)).WholeWords (EltTy.packing .f32)

variable [Facts₀]

abbrev win0_0 : Pipeline.Window sig grid0 :=
  Pipeline.Window.ofSpec (Memref.whole main_arg0) S4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x9.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S4096x3.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S4096x9.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4194304x3 : Shape := ⟨2, ![4194304, 3]⟩
abbrev S4194304x3x3 : Shape := ⟨3, ![4194304, 3, 3]⟩
abbrev S_ : Shape := ⟨0, ![]⟩
abbrev S4194304 : Shape := ⟨1, ![4194304]⟩
abbrev S4194304x1 : Shape := ⟨2, ![4194304, 1]⟩
abbrev S3x3 : Shape := ⟨2, ![3, 3]⟩
abbrev S4194304x1x1 : Shape := ⟨3, ![4194304, 1, 1]⟩
abbrev S1x3x3 : Shape := ⟨3, ![1, 3, 3]⟩
abbrev S4194304x1x3 : Shape := ⟨3, ![4194304, 1, 3]⟩
abbrev S4194304x3x1 : Shape := ⟨3, ![4194304, 3, 1]⟩

abbrev nBuf : Space → Nat
  | .hbm => 119
  | .vmem => 0
  | .smem => 0
  | _ => 0

abbrev bufTy : (tb : Table) → Fin (tcTables nBuf tb) → BufTy
  | .hbm, ⟨0, _⟩ => ⟨S4194304x3, .f32⟩
  | .hbm, ⟨1, _⟩ => ⟨S4194304x3x3, .f32⟩
  | .hbm, ⟨2, _⟩ => ⟨S4194304x3, .f32⟩
  | .hbm, ⟨3, _⟩ => ⟨S_, .f32⟩
  | .hbm, ⟨4, _⟩ => ⟨S4194304, .f32⟩
  | .hbm, ⟨5, _⟩ => ⟨S4194304x1, .f32⟩
  | .hbm, ⟨6, _⟩ => ⟨S4194304x1, .f32⟩
  | .hbm, ⟨7, _⟩ => ⟨S_, .f32⟩
  | .hbm, ⟨8, _⟩ => ⟨S4194304x1, .f32⟩
  | .hbm, ⟨9, _⟩ => ⟨S4194304x1, .i1⟩
  | .hbm, ⟨10, _⟩ => ⟨S_, .f32⟩
  | .hbm, ⟨11, _⟩ => ⟨S4194304x1, .f32⟩
  | .hbm, ⟨12, _⟩ => ⟨S4194304x1, .f32⟩
  | .hbm, ⟨13, _⟩ => ⟨S_, .f32⟩
  | .hbm, ⟨14, _⟩ => ⟨S4194304x1, .f32⟩
  | .hbm, ⟨15, _⟩ => ⟨S4194304x1, .f32⟩
  | .hbm, ⟨16, _⟩ => ⟨S4194304x3, .f32⟩
  | .hbm, ⟨17, _⟩ => ⟨S4194304x3, .f32⟩
  | .hbm, ⟨18, _⟩ => ⟨S4194304x3, .f32⟩
  | .hbm, ⟨19, _⟩ => ⟨S4194304x3, .f32⟩
  | .hbm, ⟨20, _⟩ => ⟨S4194304x3, .i1⟩
  | .hbm, ⟨21, _⟩ => ⟨S4194304x3, .f32⟩
  | .hbm, ⟨22, _⟩ => ⟨S4194304x3, .f32⟩
  | .hbm, ⟨23, _⟩ => ⟨S_, .f32⟩
  | .hbm, ⟨24, _⟩ => ⟨S4194304, .f32⟩
  | .hbm, ⟨25, _⟩ => ⟨S4194304x1, .f32⟩
  | .hbm, ⟨26, _⟩ => ⟨S4194304x1, .f32⟩
  | .hbm, ⟨27, _⟩ => ⟨S_, .f32⟩
  | .hbm, ⟨28, _⟩ => ⟨S4194304x1, .f32⟩
  | .hbm, ⟨29, _⟩ => ⟨S4194304x1, .f32⟩
  | .hbm, ⟨30, _⟩ => ⟨S_, .f32⟩
  | .hbm, ⟨31, _⟩ => ⟨S4194304x1, .f32⟩
  | .hbm, ⟨32, _⟩ => ⟨S4194304x1, .f32⟩
  | .hbm, ⟨33, _⟩ => ⟨S4194304x1, .f32⟩
  | .hbm, ⟨34, _⟩ => ⟨S_, .f32⟩
  | .hbm, ⟨35, _⟩ => ⟨S4194304x1, .f32⟩
  | .hbm, ⟨36, _⟩ => ⟨S4194304x1, .f32⟩
  | .hbm, ⟨37, _⟩ => ⟨S_, .f32⟩
  | .hbm, ⟨38, _⟩ => ⟨S4194304x1, .f32⟩
  | .hbm, ⟨39, _⟩ => ⟨S4194304x1, .f32⟩
  | .hbm, ⟨40, _⟩ => ⟨S4194304x3, .f32⟩
  | .hbm, ⟨41, _⟩ => ⟨S4194304x3, .f32⟩
  | .hbm, ⟨42, _⟩ => ⟨S4194304x1, .f32⟩
  | .hbm, ⟨43, _⟩ => ⟨S_, .f32⟩
  | .hbm, ⟨44, _⟩ => ⟨S4194304x1, .f32⟩
  | .hbm, ⟨45, _⟩ => ⟨S4194304x1, .f32⟩
  | .hbm, ⟨46, _⟩ => ⟨S4194304x3, .f32⟩
  | .hbm, ⟨47, _⟩ => ⟨S4194304x3, .f32⟩
  | .hbm, ⟨48, _⟩ => ⟨S3x3, .i32⟩
  | .hbm, ⟨49, _⟩ => ⟨S3x3, .i32⟩
  | .hbm, ⟨50, _⟩ => ⟨S_, .i32⟩
  | .hbm, ⟨51, _⟩ => ⟨S3x3, .i32⟩
  | .hbm, ⟨52, _⟩ => ⟨S3x3, .i32⟩
  | .hbm, ⟨53, _⟩ => ⟨S3x3, .i1⟩
  | .hbm, ⟨54, _⟩ => ⟨S3x3, .f32⟩
  | .hbm, ⟨55, _⟩ => ⟨S3x3, .f32⟩
  | .hbm, ⟨56, _⟩ => ⟨S4194304x1x1, .f32⟩
  | .hbm, ⟨57, _⟩ => ⟨S1x3x3, .f32⟩
  | .hbm, ⟨58, _⟩ => ⟨S4194304x3x3, .f32⟩
  | .hbm, ⟨59, _⟩ => ⟨S4194304x3x3, .f32⟩
  | .hbm, ⟨60, _⟩ => ⟨S4194304x3x3, .f32⟩
  | .hbm, ⟨61, _⟩ => ⟨S4194304x1x3, .f32⟩
  | .hbm, ⟨62, _⟩ => ⟨S1x3x3, .f32⟩
  | .hbm, ⟨63, _⟩ => ⟨S4194304x3x3, .f32⟩
  | .hbm, ⟨64, _⟩ => ⟨S4194304x3x3, .f32⟩
  | .hbm, ⟨65, _⟩ => ⟨S4194304x3x3, .f32⟩
  | .hbm, ⟨66, _⟩ => ⟨S_, .f32⟩
  | .hbm, ⟨67, _⟩ => ⟨S4194304x3, .f32⟩
  | .hbm, ⟨68, _⟩ => ⟨S4194304x3x1, .f32⟩
  | .hbm, ⟨69, _⟩ => ⟨S4194304x1x1, .f32⟩
  | .hbm, ⟨70, _⟩ => ⟨S4194304x3x3, .f32⟩
  | .hbm, ⟨71, _⟩ => ⟨S4194304x3x3, .f32⟩
  | .hbm, ⟨72, _⟩ => ⟨S4194304x1x3, .f32⟩
  | .hbm, ⟨73, _⟩ => ⟨S4194304x3x3, .f32⟩
  | .hbm, ⟨74, _⟩ => ⟨S4194304x3x3, .f32⟩
  | .hbm, ⟨75, _⟩ => ⟨S_, .f32⟩
  | .hbm, ⟨76, _⟩ => ⟨S4194304x3, .f32⟩
  | .hbm, ⟨77, _⟩ => ⟨S4194304x3x1, .f32⟩
  | .hbm, ⟨78, _⟩ => ⟨S4194304x3x1, .f32⟩
  | .hbm, ⟨79, _⟩ => ⟨S4194304x1x1, .f32⟩
  | .hbm, ⟨80, _⟩ => ⟨S4194304x3x3, .f32⟩
  | .hbm, ⟨81, _⟩ => ⟨S4194304x3x3, .f32⟩
  | .hbm, ⟨82, _⟩ => ⟨S4194304x3x1, .f32⟩
  | .hbm, ⟨83, _⟩ => ⟨S4194304x1x1, .f32⟩
  | .hbm, ⟨84, _⟩ => ⟨S4194304x3x1, .f32⟩
  | .hbm, ⟨85, _⟩ => ⟨S4194304x3x1, .f32⟩
  | .hbm, ⟨86, _⟩ => ⟨S_, .f32⟩
  | .hbm, ⟨87, _⟩ => ⟨S4194304x3x1, .f32⟩
  | .hbm, ⟨88, _⟩ => ⟨S4194304x3x1, .f32⟩
  | .hbm, ⟨89, _⟩ => ⟨S4194304x3x1, .f32⟩
  | .hbm, ⟨90, _⟩ => ⟨S4194304x3x1, .f32⟩
  | .hbm, ⟨91, _⟩ => ⟨S4194304x1x1, .f32⟩
  | .hbm, ⟨92, _⟩ => ⟨S4194304x3x1, .f32⟩
  | .hbm, ⟨93, _⟩ => ⟨S4194304x3x1, .f32⟩
  | .hbm, ⟨94, _⟩ => ⟨S_, .f32⟩
  | .hbm, ⟨95, _⟩ => ⟨S4194304x3, .f32⟩
  | .hbm, ⟨96, _⟩ => ⟨S4194304x3x3, .f32⟩
  | .hbm, ⟨97, _⟩ => ⟨S4194304x1x3, .f32⟩
  | .hbm, ⟨98, _⟩ => ⟨S4194304x3x3, .f32⟩
  | .hbm, ⟨99, _⟩ => ⟨S4194304x3x3, .f32⟩
  | .hbm, ⟨100, _⟩ => ⟨S4194304x1x3, .f32⟩
  | .hbm, ⟨101, _⟩ => ⟨S4194304x3x3, .f32⟩
  | .hbm, ⟨102, _⟩ => ⟨S4194304x3x3, .f32⟩
  | .hbm, ⟨103, _⟩ => ⟨S4194304x3x3, .f32⟩
  | .hbm, ⟨104, _⟩ => ⟨S4194304x3x3, .f32⟩
  | .hbm, ⟨105, _⟩ => ⟨S4194304x3x3, .f32⟩
  | .hbm, ⟨106, _⟩ => ⟨S4194304x3x3, .f32⟩
  | .hbm, ⟨107, _⟩ => ⟨S4194304x3, .f32⟩
  | .hbm, ⟨108, _⟩ => ⟨S_, .f32⟩
  | .hbm, ⟨109, _⟩ => ⟨S4194304, .f32⟩
  | .hbm, ⟨110, _⟩ => ⟨S4194304, .f32⟩
  | .hbm, ⟨111, _⟩ => ⟨S_, .f32⟩
  | .hbm, ⟨112, _⟩ => ⟨S4194304, .f32⟩
  | .hbm, ⟨113, _⟩ => ⟨S4194304, .i1⟩
  | .hbm, ⟨114, _⟩ => ⟨S4194304x3x3, .f32⟩
  | .hbm, ⟨115, _⟩ => ⟨S4194304x3x3, .f32⟩
  | .hbm, ⟨116, _⟩ => ⟨S4194304x1x1, .i1⟩
  | .hbm, ⟨117, _⟩ => ⟨S4194304x3x3, .i1⟩
  | .hbm, ⟨118, _⟩ => ⟨S4194304x3x3, .f32⟩
  | _, _ => ⟨S4194304x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_v0 : Ref sig .tc := ⟨.hbm, 20, rfl⟩
abbrev main_v11 : Ref sig .tc := ⟨.hbm, 21, rfl⟩
abbrev main_call2_v0 : Ref sig .tc := ⟨.hbm, 22, rfl⟩
abbrev main_call2_cst : Ref sig .tc := ⟨.hbm, 23, rfl⟩
abbrev main_call2_v1 : Ref sig .tc := ⟨.hbm, 24, rfl⟩
abbrev main_call2_v2 : Ref sig .tc := ⟨.hbm, 25, rfl⟩
abbrev main_v12_0 : Ref sig .tc := ⟨.hbm, 26, rfl⟩
abbrev main_call2_cst_0 : Ref sig .tc := ⟨.hbm, 27, rfl⟩
abbrev main_call2_v4 : Ref sig .tc := ⟨.hbm, 28, rfl⟩
abbrev main_v12_1 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_3 : Ref sig .tc := ⟨.hbm, 34, rfl⟩
abbrev main_v16 : Ref sig .tc := ⟨.hbm, 35, rfl⟩
abbrev main_v17 : Ref sig .tc := ⟨.hbm, 36, rfl⟩
abbrev main_cst_4 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_5 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_6 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_7 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_8 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_call3_v0 : Ref sig .tc := ⟨.hbm, 91, rfl⟩
abbrev main_call3_v1 : Ref sig .tc := ⟨.hbm, 92, rfl⟩
abbrev main_call3_v2 : Ref sig .tc := ⟨.hbm, 93, rfl⟩
abbrev main_call3_cst : Ref sig .tc := ⟨.hbm, 94, rfl⟩
abbrev main_call3_v3 : Ref sig .tc := ⟨.hbm, 95, rfl⟩
abbrev main_call3_v4 : Ref sig .tc := ⟨.hbm, 96, rfl⟩
abbrev main_call3_v5 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_call4_v0 : Ref sig .tc := ⟨.hbm, 107, rfl⟩
abbrev main_call4_cst : Ref sig .tc := ⟨.hbm, 108, rfl⟩
abbrev main_call4_v1 : Ref sig .tc := ⟨.hbm, 109, rfl⟩
abbrev main_v70 : Ref sig .tc := ⟨.hbm, 110, rfl⟩
abbrev main_cst_9 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_call5_v0 : Ref sig .tc := ⟨.hbm, 117, rfl⟩
abbrev main_v76 : Ref sig .tc := ⟨.hbm, 118, rfl⟩

abbrev nD : Nat := 1
abbrev τ : Topo := Topo.v7x

variable {F : FTy → Type} [FloatOps F]

class Facts₀ : Prop where
  reducesTo_S4194304x3_S4194304_d1 : S4194304x3.ReducesTo [1] S4194304
  h_S_ : 0 < S_.numel
  bcast_S4194304_S4194304x1_0 : S4194304.BroadcastsInDim S4194304x1 (![0] : Fin 1 → Fin S4194304x1.rank)
  bcast_S_S4194304x1 : S_.BroadcastsInDim S4194304x1 (![] : Fin 0 → Fin S4194304x1.rank)
  bcast_S4194304x1_S4194304x3_0_1 : S4194304x1.BroadcastsInDim S4194304x3 (![0, 1] : Fin 2 → Fin S4194304x3.rank)
  bcast_S_S3x3 : S_.BroadcastsInDim S3x3 (![] : Fin 0 → Fin S3x3.rank)
  slices_S3x3_S3x3_0_0 : S3x3.Slices ![0, 0] S3x3
  bcast_S4194304x1_S4194304x1x1_0_2 : S4194304x1.BroadcastsInDim S4194304x1x1 (![0, 2] : Fin 2 → Fin S4194304x1x1.rank)
  bcast_S3x3_S1x3x3_1_2 : S3x3.BroadcastsInDim S1x3x3 (![1, 2] : Fin 2 → Fin S1x3x3.rank)
  bcast_S4194304x1x1_S4194304x3x3_0_1_2 : S4194304x1x1.BroadcastsInDim S4194304x3x3 (![0, 1, 2] : Fin 3 → Fin S4194304x3x3.rank)
  bcast_S1x3x3_S4194304x3x3_0_1_2 : S1x3x3.BroadcastsInDim S4194304x3x3 (![0, 1, 2] : Fin 3 → Fin S4194304x3x3.rank)
  bcast_S4194304x3_S4194304x1x3_0_2 : S4194304x3.BroadcastsInDim S4194304x1x3 (![0, 2] : Fin 2 → Fin S4194304x1x3.rank)
  bcast_S4194304x1x3_S4194304x3x3_0_1_2 : S4194304x1x3.BroadcastsInDim S4194304x3x3 (![0, 1, 2] : Fin 3 → Fin S4194304x3x3.rank)
  reducesTo_S4194304x3x3_S4194304x3_d2 : S4194304x3x3.ReducesTo [2] S4194304x3
  shapeCasts_S4194304x3_S4194304x3x1 : S4194304x3.ShapeCasts S4194304x3x1
  bcast_S4194304x1x1_S4194304x3x1_0_1_2 : S4194304x1x1.BroadcastsInDim S4194304x3x1 (![0, 1, 2] : Fin 3 → Fin S4194304x3x1.rank)
  bcast_S_S4194304x3x1 : S_.BroadcastsInDim S4194304x3x1 (![] : Fin 0 → Fin S4194304x3x1.rank)
  reducesTo_S4194304x3x1_S4194304x3_d2 : S4194304x3x1.ReducesTo [2] S4194304x3
  bcast_S4194304x3_S4194304x3x3_0_1 : S4194304x3.BroadcastsInDim S4194304x3x3 (![0, 1] : Fin 2 → Fin S4194304x3x3.rank)
  slices_S4194304x3x3_S4194304x3x3_0_0_0 : S4194304x3x3.Slices ![0, 0, 0] S4194304x3x3
  bcast_S_S4194304 : S_.BroadcastsInDim S4194304 (![] : Fin 0 → Fin S4194304.rank)
  bcast_S4194304_S4194304x1x1_0 : S4194304.BroadcastsInDim S4194304x1x1 (![0] : Fin 1 → Fin S4194304x1x1.rank)
  dot_S4194304x3x3_S4194304x3x3_S4194304x3x3_1_2_2_1_0_0_wf : DotDims.WF S4194304x3x3 S4194304x3x3 S4194304x3x3 [1] [2] [2] [1] [0] [0]

variable [Facts₀]

def dot_S4194304x3x3_S4194304x3x3_S4194304x3x3_1_2_2_1_0_0 : DotDims S4194304x3x3 S4194304x3x3 S4194304x3x3 where
  lhsContracting := [1]
  rhsContracting := [2]
  lhsNonContracting := [2]
  rhsNonContracting := [1]
  lhsBatch := [0]
  rhsBatch := [0]
  wf := dot_S4194304x3x3_S4194304x3x3_S4194304x3x3_1_2_2_1_0_0_wf

class Facts : Prop extends Facts₀ where

variable [Facts]
-- ==== Proof.RowForms.lean ====
/-
  One sample of the scene contraction, as both programs compute it, written over the extended reals.

  A sample is a mean `x : Fin 3 → EReal` and a covariance `c : Fin 3 → Fin 3 → EReal`. With `r = ‖x‖` the
  contraction of the mean is `x` inside the unit ball and `(2 - 1/r) · x / r` outside; the covariance is kept inside
  the ball and replaced by `J c Jᵀ` outside, `J` the Jacobian of `y ↦ (2 - 1/‖y‖) · y / ‖y‖` at `x`.

  The kernel's arithmetic (`kMean`, `kCov`) uses the closed form `J = a·I + b·x xᵀ` with `a = 2/r - 1/r²` and
  `b = 2/r⁴ - 2/r³`, expanded to `a² c + a b (v xᵀ + x wᵀ) + b² s · x xᵀ` for `v = c x`, `w = cᵀ x`, `s = x · v`.
  The reference's arithmetic (`rMean`, `rCov`) is reverse-mode differentiation unrolled: for each output
  coordinate `i` the cotangent `eᵢ` is pulled back through the product, the quotient by the norm, the
  reciprocal, the square root and the sum of squares; then two contractions form `J c Jᵀ`.

  Each definition follows its program's order of operations exactly, so that an array a program leaves, read at an
  index, is the definition applied to that sample's entries without any algebra. That the two agree on finite samples
  is proved separately.
-/
import Idealize.ShloMosaic.PureOps.Ideal

noncomputable section

namespace Cert.Contract

open Idealize.ShloMosaic
open scoped BigOperators

/-- The float constants the programs spell: `0`, `1/2`, `1`, `2`. -/
abbrev zero : EReal := Ideal.ofBits .f32 0x00000000#32
abbrev half : EReal := Ideal.ofBits .f32 0x3F000000#32
abbrev one : EReal := Ideal.ofBits .f32 0x3F800000#32
abbrev two : EReal := Ideal.ofBits .f32 0x40000000#32

/-! ## The kernel's arithmetic -/

/-- The norm, summed first to last. -/
def kR (x : Fin 3 → EReal) : EReal := Ideal.sqrt ((x 0 * x 0 + x 1 * x 1) + x 2 * x 2)
/-- `1/r` and its powers. -/
def kInv (x : Fin 3 → EReal) : EReal := Ideal.div one (kR x)
def kInv2 (x : Fin 3 → EReal) : EReal := kInv x * kInv x
def kInv3 (x : Fin 3 → EReal) : EReal := kInv2 x * kInv x
def kInv4 (x : Fin 3 → EReal) : EReal := kInv2 x * kInv2 x
/-- `a = 2/r - 1/r²`. -/
def kA (x : Fin 3 → EReal) : EReal := two * kInv x - kInv2 x
/-- `b = 2/r⁴ - 2/r³`. -/
def kB (x : Fin 3 → EReal) : EReal := two * kInv4 x - two * kInv3 x
/-- Inside the unit ball? -/
def kLt (x : Fin 3 → EReal) : BitVec 1 := Ideal.cmp .olt (kR x) one
/-- Its complement. -/
def kGe (x : Fin 3 → EReal) : BitVec 1 := IntOp.xori (kLt x) 1#1

/-- The contracted mean, coordinate `k`. -/
def kMean (x : Fin 3 → EReal) (k : Fin 3) : EReal := Scalar.select (kLt x) (x k) (kA x * x k)

/-- `v = c x`, `w = cᵀ x`, `s = x · v`. -/
def kV (x : Fin 3 → EReal) (c : Fin 3 → Fin 3 → EReal) (i : Fin 3) : EReal := (c i 0 * x 0 + c i 1 * x 1) + c i 2 * x 2
def kW (x : Fin 3 → EReal) (c : Fin 3 → Fin 3 → EReal) (j : Fin 3) : EReal := (c 0 j * x 0 + c 1 j * x 1) + c 2 j * x 2
def kS (x : Fin 3 → EReal) (c : Fin 3 → Fin 3 → EReal) : EReal := (x 0 * kV x c 0 + x 1 * kV x c 1) + x 2 * kV x c 2

/-- Entry `(i, j)` of `J c Jᵀ` in the expanded closed form. -/
def kNew (x : Fin 3 → EReal) (c : Fin 3 → Fin 3 → EReal) (i j : Fin 3) : EReal :=
  (((kA x * kA x) * c i j) + (kA x * kB x) * (kV x c i * x j + x i * kW x c j)) + (((kB x * kB x) * kS x c) * x i) * x j

/-- The contracted covariance, entry `(i, j)`. -/
def kCov (x : Fin 3 → EReal) (c : Fin 3 → Fin 3 → EReal) (i j : Fin 3) : EReal :=
  Scalar.select (kGe x) (kNew x c i j) (c i j)

/-! ## The reference's arithmetic -/

/-- The norm: a sum from zero over the three squares, then the root. -/
def rR (x : Fin 3 → EReal) : EReal := Ideal.sqrt (zero + ∑ k : Fin 3, x k * x k)
/-- `g = 2 - 1/r`. -/
def rG (x : Fin 3 → EReal) : EReal := two - Ideal.div one (rR x)
/-- `u = x / r`. -/
def rU (x : Fin 3 → EReal) (j : Fin 3) : EReal := Ideal.div (x j) (rR x)

/-- The contracted mean, coordinate `k`. -/
def rMean (x : Fin 3 → EReal) (k : Fin 3) : EReal :=
  Scalar.select (Ideal.cmp .olt (rR x) one) (x k) (rG x * rU x k)

/-- The identity matrix as the reference builds it: row number equals column number, as a float. -/
def eye (i j : Fin 3) : EReal :=
  FloatOps.uitofp (F := Ideal) .f32 (IntOp.cmpi .eq (IntOp.addi (BitVec.ofNat 32 i.val) 0#32) (BitVec.ofNat 32 j.val))

/-- `1/(r·r)`. -/
def rInvSq (x : Fin 3 → EReal) : EReal := Ideal.div one (rR x * rR x)
/-- The cotangent of `u` for output coordinate `i`: `g · eᵢ`. -/
def rGE (x : Fin 3 → EReal) (i j : Fin 3) : EReal := rG x * eye i j
/-- The cotangent of `g`: `eᵢ · u`. -/
def rCtG (x : Fin 3 → EReal) (i : Fin 3) : EReal := zero + ∑ j : Fin 3, eye i j * rU x j
/-- The quotient's pull-back to the norm, before its sign: `Σⱼ (g eᵢⱼ / r²) xⱼ`. -/
def rQuot (x : Fin 3 → EReal) (i : Fin 3) : EReal := zero + ∑ j : Fin 3, (rGE x i j * rInvSq x) * x j
/-- The cotangent of the norm: the quotient's part and the reciprocal's part. -/
def rCtR (x : Fin 3 → EReal) (i : Fin 3) : EReal := -(rQuot x i) + -(((-(rCtG x i)) * rInvSq x) * one)
/-- The cotangent of the sum of squares: through the root, `· 1/(2r)`. -/
def rCtS (x : Fin 3 → EReal) (i : Fin 3) : EReal := zero + ∑ _k : Fin 1, rCtR x i * Ideal.div half (rR x)
/-- The Jacobian, entry `(i, j)`. -/
def rJ (x : Fin 3 → EReal) (i j : Fin 3) : EReal := Ideal.div (rGE x i j) (rR x) + (x j * rCtS x i + rCtS x i * x j)

/-- `cᵀ Jᵀ`, entry `(a, b)`: the first contraction. -/
def rCJ (x : Fin 3 → EReal) (c : Fin 3 → Fin 3 → EReal) (a b : Fin 3) : EReal := ∑ k : Fin 3, c k a * rJ x b k
/-- `J c Jᵀ`, entry `(i, l)`: the second contraction. -/
def rJCJ (x : Fin 3 → EReal) (c : Fin 3 → Fin 3 → EReal) (i l : Fin 3) : EReal := ∑ k : Fin 3, rCJ x c k i * rJ x l k

/-- The contracted covariance, entry `(i, j)`. -/
def rCov (x : Fin 3 → EReal) (c : Fin 3 → Fin 3 → EReal) (i j : Fin 3) : EReal :=
  Scalar.select (Ideal.cmp .oge (rR x) one) (rJCJ x c i j) (c i j)

end Cert.Contract

end
-- ==== Proof.RowAlgebra.lean ====
/-
  The two per-sample arithmetic forms of the scene contraction agree on real samples.

  Put r = √(x₀² + x₁² + x₂²) for a real mean x. Both programs' norms are r, read in the extended reals, and each
  program's comparison against 1 decides r < 1 or 1 ≤ r.

  Inside the unit ball (r < 1) both programs select the untouched entry, so nothing about the other branch is used;
  at the origin that branch divides by zero and holds no meaningful value.

  Outside (1 ≤ r) the norm is not zero, every quantity is a real number, and every quotient is the real quotient.
  With g = 2 - 1/r, the reverse-mode Jacobian entry is
      g δᵢⱼ / r + 2 xⱼ · (1/(2r)) · (-g xᵢ / r² + (xᵢ / r) / r²) = a δᵢⱼ + b xᵢ xⱼ,
  a = 2/r - 1/r², b = 2/r⁴ - 2/r³, an identity of rational functions of r that does not use r² = |x|². Then
      (J c Jᵀ)ᵢₗ = Σₖ Σₘ Jᵢₘ cₘₖ Jₗₖ = a² cᵢₗ + a b (vᵢ xₗ + xᵢ wₗ) + b² s xᵢ xₗ
  for v = c x, w = cᵀ x, s = x · v: a polynomial identity in a, b, x and c, checked entry by entry. The mean is
  (2/r - 1/r²) xₖ = (2 - 1/r) (xₖ / r).
-/
import proofs.«170970_j54795192762843_1_alg».proof.Proof.RowForms
import Mathlib.Data.EReal.Operations
import Mathlib.Analysis.Real.Sqrt
import Mathlib.Algebra.BigOperators.Fin
import Mathlib.Tactic.FieldSimp
import Mathlib.Tactic.Ring
import Mathlib.Tactic.FinCases
import Mathlib.Tactic.NormNum
import Mathlib.Tactic.Linarith

noncomputable section

namespace Cert.Contract

open Idealize.ShloMosaic
open scoped BigOperators

/-! ## The four constants -/

theorem zero_eq : zero = ((0 : ℝ) : EReal) := by simp [Ideal.ofBits, Ideal.ieee]
theorem half_eq : half = ((1 / 2 : ℝ) : EReal) := by simp [Ideal.ofBits, Ideal.ieee, -EReal.coe_mul]; norm_num
theorem one_eq : one = ((1 : ℝ) : EReal) := by simp [Ideal.ofBits, Ideal.ieee, -EReal.coe_mul]; norm_num
theorem two_eq : two = ((2 : ℝ) : EReal) := by simp [Ideal.ofBits, Ideal.ieee, -EReal.coe_mul]; norm_num

/-! ## Selection, comparison and division on reals -/

theorem sel_one {α : Type} (a b : α) : Scalar.select 1#1 a b = a := if_pos rfl
theorem sel_zero {α : Type} (a b : α) : Scalar.select 0#1 a b = b := if_neg (by decide)

theorem cmp_olt_one (ρ : ℝ) : Ideal.cmp .olt (ρ : EReal) one = BitVec.ofBool (decide (ρ < 1)) := by
  rw [one_eq]; simp only [Ideal.cmp, EReal.coe_lt_coe_iff]

theorem cmp_oge_one (ρ : ℝ) : Ideal.cmp .oge (ρ : EReal) one = BitVec.ofBool (decide (1 ≤ ρ)) := by
  rw [one_eq]; simp only [Ideal.cmp, EReal.coe_le_coe_iff]

/-- The quotient of two reals, the divisor not zero, is the real quotient. -/
theorem div_coe_coe (a : ℝ) {b : ℝ} (hb : b ≠ 0) : Ideal.div (a : EReal) (b : EReal) = ((a / b : ℝ) : EReal) := by
  rw [Ideal.div_coe hb, ← EReal.coe_mul, mul_one_div]

/-! ## The norm -/

/-- The norm of a real sample. -/
def rho (x : Fin 3 → ℝ) : ℝ := Real.sqrt ((x 0 * x 0 + x 1 * x 1) + x 2 * x 2)

theorem sq_sum_nonneg (x : Fin 3 → ℝ) : ¬ ((x 0 * x 0 + x 1 * x 1) + x 2 * x 2 < 0) :=
  not_lt.mpr (add_nonneg (add_nonneg (mul_self_nonneg _) (mul_self_nonneg _)) (mul_self_nonneg _))

theorem kR_coe (x : Fin 3 → ℝ) : kR (fun a => (x a : EReal)) = (rho x : EReal) := by
  unfold kR rho
  simp only [← EReal.coe_mul, ← EReal.coe_add]
  rw [Ideal.sqrt_coe, if_neg (sq_sum_nonneg x)]

theorem rR_coe (x : Fin 3 → ℝ) : rR (fun a => (x a : EReal)) = (rho x : EReal) := by
  unfold rR rho
  rw [zero_eq, Fin.sum_univ_three]
  simp only [← EReal.coe_mul, ← EReal.coe_add, zero_add]
  rw [Ideal.sqrt_coe, if_neg (sq_sum_nonneg x)]

/-! ## The kernel's coefficients on a real sample off the origin -/

/-- a = 2/r - 1/r², in the order the kernel forms it. -/
def aR (ρ : ℝ) : ℝ := 2 * (1 / ρ) - 1 / ρ * (1 / ρ)
/-- b = 2/r⁴ - 2/r³, in the order the kernel forms it. -/
def bR (ρ : ℝ) : ℝ := 2 * (1 / ρ * (1 / ρ) * (1 / ρ * (1 / ρ))) - 2 * (1 / ρ * (1 / ρ) * (1 / ρ))

theorem kA_coe (x : Fin 3 → ℝ) (hρ : rho x ≠ 0) : kA (fun a => (x a : EReal)) = (aR (rho x) : EReal) := by
  simp only [kA, kInv2, kInv, kR_coe, one_eq, two_eq, div_coe_coe _ hρ, ← EReal.coe_mul, ← EReal.coe_sub, aR]

theorem kB_coe (x : Fin 3 → ℝ) (hρ : rho x ≠ 0) : kB (fun a => (x a : EReal)) = (bR (rho x) : EReal) := by
  simp only [kB, kInv4, kInv3, kInv2, kInv, kR_coe, one_eq, two_eq, div_coe_coe _ hρ, ← EReal.coe_mul,
    ← EReal.coe_sub, bR]

/-- Entry (i, j) of the expanded closed form, over the reals, for any coefficients a and b. -/
def newR (a b : ℝ) (x : Fin 3 → ℝ) (c : Fin 3 → Fin 3 → ℝ) (i j : Fin 3) : ℝ :=
  (((a * a) * c i j)
      + (a * b) * (((c i 0 * x 0 + c i 1 * x 1) + c i 2 * x 2) * x j + x i * ((c 0 j * x 0 + c 1 j * x 1) + c 2 j * x 2)))
    + (((b * b) * ((x 0 * ((c 0 0 * x 0 + c 0 1 * x 1) + c 0 2 * x 2) + x 1 * ((c 1 0 * x 0 + c 1 1 * x 1) + c 1 2 * x 2))
        + x 2 * ((c 2 0 * x 0 + c 2 1 * x 1) + c 2 2 * x 2))) * x i) * x j

theorem kNew_coe (x : Fin 3 → ℝ) (c : Fin 3 → Fin 3 → ℝ) (hρ : rho x ≠ 0) (i j : Fin 3) :
    kNew (fun a => (x a : EReal)) (fun a b => (c a b : EReal)) i j = (newR (aR (rho x)) (bR (rho x)) x c i j : EReal) := by
  simp only [kNew, kS, kV, kW, kA_coe x hρ, kB_coe x hρ, ← EReal.coe_mul, ← EReal.coe_add, newR]

/-! ## The reference's Jacobian on a real sample off the origin -/

/-- Kronecker's delta. -/
def delta (i j : Fin 3) : ℝ := if i = j then 1 else 0

theorem eye_coe (i j : Fin 3) : eye i j = (delta i j : EReal) := by
  fin_cases i <;> fin_cases j <;> simp [eye, delta, IntOp.cmpi, IntOp.addi, FloatOps.uitofp]

/-- The Jacobian's entry in closed form: a δᵢⱼ + b xᵢ xⱼ. -/
def jR (a b : ℝ) (x : Fin 3 → ℝ) (i j : Fin 3) : ℝ := a * delta i j + b * x i * x j

theorem rJ_coe (x : Fin 3 → ℝ) (hρ : rho x ≠ 0) (i j : Fin 3) :
    rJ (fun a => (x a : EReal)) i j = (jR (aR (rho x)) (bR (rho x)) x i j : EReal) := by
  have hρ2 : rho x * rho x ≠ 0 := mul_ne_zero hρ hρ
  simp only [rJ, rCtS, rCtR, rQuot, rCtG, rGE, rInvSq, rU, rG, rR_coe, eye_coe, zero_eq, half_eq, one_eq, two_eq,
    Fin.sum_univ_three, Fin.sum_univ_one, ← EReal.coe_mul, div_coe_coe _ hρ, div_coe_coe _ hρ2,
    ← EReal.coe_add, ← EReal.coe_sub, ← EReal.coe_neg]
  rw [EReal.coe_eq_coe_iff]
  generalize rho x = ρ at hρ hρ2 ⊢
  unfold jR aR bR
  generalize delta i j = d
  fin_cases i <;> simp [delta] <;> field_simp <;> ring

/-! ## The double contraction -/

theorem rJCJ_coe (x : Fin 3 → ℝ) (c : Fin 3 → Fin 3 → ℝ) (hρ : rho x ≠ 0) (i l : Fin 3) :
    rJCJ (fun a => (x a : EReal)) (fun a b => (c a b : EReal)) i l
      = (newR (aR (rho x)) (bR (rho x)) x c i l : EReal) := by
  simp only [rJCJ, rCJ, Fin.sum_univ_three, rJ_coe x hρ, ← EReal.coe_mul, ← EReal.coe_add]
  rw [EReal.coe_eq_coe_iff]
  generalize aR (rho x) = a
  generalize bR (rho x) = b
  unfold newR jR
  fin_cases i <;> fin_cases l <;> simp [delta] <;> ring

/-! ## The two programs' arithmetic agrees on real samples -/

theorem mean_agree (x : Fin 3 → ℝ) (k : Fin 3) :
    rMean (fun a => (x a : EReal)) k = kMean (fun a => (x a : EReal)) k := by
  unfold rMean kMean kLt
  rw [rR_coe, kR_coe, cmp_olt_one]
  rcases lt_or_ge (rho x) 1 with h | h
  · rw [decide_eq_true h]
    exact (sel_one _ _).trans (sel_one _ _).symm
  · have hρ : rho x ≠ 0 := ne_of_gt (lt_of_lt_of_le one_pos h)
    rw [decide_eq_false (not_lt.mpr h)]
    refine (sel_zero _ _).trans (Eq.trans ?_ (sel_zero _ _).symm)
    simp only [rG, rU, rR_coe, kA_coe x hρ, one_eq, two_eq, div_coe_coe _ hρ, ← EReal.coe_mul, ← EReal.coe_sub]
    rw [EReal.coe_eq_coe_iff]
    unfold aR
    ring

theorem cov_agree (x : Fin 3 → ℝ) (c : Fin 3 → Fin 3 → ℝ) (i j : Fin 3) :
    rCov (fun a => (x a : EReal)) (fun a b => (c a b : EReal)) i j
      = kCov (fun a => (x a : EReal)) (fun a b => (c a b : EReal)) i j := by
  unfold rCov kCov kGe kLt
  rw [rR_coe, kR_coe, cmp_olt_one, cmp_oge_one]
  rcases lt_or_ge (rho x) 1 with h | h
  · rw [decide_eq_true h, decide_eq_false (not_le.mpr h)]
    exact (sel_zero _ _).trans (sel_zero _ _).symm
  · have hρ : rho x ≠ 0 := ne_of_gt (lt_of_lt_of_le one_pos h)
    rw [decide_eq_false (not_lt.mpr h), decide_eq_true h]
    refine (sel_one _ _).trans (Eq.trans ?_ (sel_one _ _).symm)
    rw [rJCJ_coe x c hρ, kNew_coe x c hρ]

end Cert.Contract

end
-- ==== Proof.RefRows.lean ====
/-
  The reference program read at an index.

  Each array the reference leaves, read at an index whose leading coordinate names a sample, is the corresponding
  one-sample quantity applied to that sample's entries: the mean's row `k ↦ x0 (n, k)` and the covariance's block
  `(a, b) ↦ x1 (n, a, b)`. No algebra is involved: both sides are the same tree of operations, and the work is to
  follow the broadcasts, slices and reshapes down to the coordinates they read.
-/
import proofs.«170970_j54795192762843_1_alg».proof.Proof.Gen.ReferenceIdeal.Read
import proofs.«170970_j54795192762843_1_alg».proof.Proof.RowForms
import Idealize.ShloMosaic.Lib.ValueIdx

noncomputable section

namespace Cert.ReferenceIdeal.RefRows

open Idealize.ShloMosaic Idealize.ShloMosaic.ValueIdx Cert.ReferenceIdeal Cert.ReferenceIdeal.Read Cert.Contract
open scoped BigOperators

/-- Two rank-2 indices with equal coordinates are equal. -/
local macro "idx2" : tactic =>
  `(tactic| (funext a; match a with | ⟨0, _⟩ => rfl | ⟨1, _⟩ => rfl))
/-- Two rank-3 indices with equal coordinates are equal. -/
local macro "idx3" : tactic =>
  `(tactic| (funext a; match a with | ⟨0, _⟩ => rfl | ⟨1, _⟩ => rfl | ⟨2, _⟩ => rfl))

variable (x0 : (⟨S4194304x3, .f32⟩ : BufTy).Contents (Elt Ideal))
variable (x1 : (⟨S4194304x3x3, .f32⟩ : BufTy).Contents (Elt Ideal))

/-! ## The norm (the program computes it three times) -/

theorem norm0_apply (i : S4194304x1.Idx) :
    val_main_v0 (F := Ideal) x0 i = rR (fun k => x0 (ix2 (i 0) k)) := by
  rw [val_main_v0_apply, val_main_call0_v2_apply, val_main_call0_v1_apply, val_main_call0_cst_apply]
  unfold rR
  refine congrArg (fun s => Ideal.sqrt (zero + s)) (Finset.sum_congr rfl fun k _ => ?_)
  rw [val_main_call0_v0_apply,
    show idx_main_call0_v1 (idx_main_call0_v2 i) k = ix2 (i 0) k by idx2]
  rfl

theorem norm_apply (i : S4194304x1.Idx) :
    val_main_v12_0 (F := Ideal) x0 i = rR (fun k => x0 (ix2 (i 0) k)) := by
  rw [val_main_v12_0_apply, val_main_call2_v2_apply, val_main_call2_v1_apply, val_main_call2_cst_apply]
  unfold rR
  refine congrArg (fun s => Ideal.sqrt (zero + s)) (Finset.sum_congr rfl fun k _ => ?_)
  rw [val_main_call2_v0_apply,
    show idx_main_call2_v1 (idx_main_call2_v2 i) k = ix2 (i 0) k by idx2]
  rfl

theorem norm4_apply (i : S4194304.Idx) :
    val_main_v70 (F := Ideal) x0 i = rR (fun k => x0 (ix2 (i 0) k)) := by
  rw [val_main_v70_apply, val_main_call4_v1_apply, val_main_call4_cst_apply]
  unfold rR
  refine congrArg (fun s => Ideal.sqrt (zero + s)) (Finset.sum_congr rfl fun k _ => ?_)
  rw [val_main_call4_v0_apply,
    show idx_main_call4_v1 i k = ix2 (i 0) k by idx2]
  rfl

/-! ## The mean -/

/-- `g = 2 - 1/r` on the mean's path. -/
theorem g0_apply (i : S4194304x1.Idx) :
    val_main_v6 (F := Ideal) x0 i = rG (fun k => x0 (ix2 (i 0) k)) := by
  rw [val_main_v6_apply, val_main_v5_apply, val_main_cst_1_apply, val_main_v4_apply, val_main_v3_apply,
    val_main_cst_0_apply, norm0_apply]
  rfl

/-- `u = x / r` on the mean's path. -/
theorem u0_apply (i : S4194304x3.Idx) :
    val_main_v8 (F := Ideal) x0 i = rU (fun k => x0 (ix2 (i 0) k)) (i 1) := by
  rw [val_main_v8_apply, val_main_v7_apply, norm0_apply, congrArg x0 (eq_ix2 i)]
  rfl

theorem mean_apply (i : S4194304x3.Idx) :
    val_main_v11 (F := Ideal) x0 i = rMean (fun k => x0 (ix2 (i 0) k)) (i 1) := by
  rw [val_main_v11_apply, val_main_call1_v0_apply, val_main_v2_apply, val_main_v1_apply, val_main_cst_apply,
    val_main_v10_apply, val_main_v9_apply, norm0_apply, g0_apply, u0_apply, congrArg x0 (eq_ix2 i)]
  rfl

/-! ## The covariance: the Jacobian's pieces -/

/-- `g = 2 - 1/r`. -/
theorem g_apply (i : S4194304x1.Idx) :
    val_main_v19 (F := Ideal) x0 i = rG (fun k => x0 (ix2 (i 0) k)) := by
  rw [val_main_v19_apply, val_main_v18_apply, val_main_cst_4_apply, val_main_v14_apply, val_main_v13_apply,
    val_main_cst_2_apply, norm_apply]
  rfl

/-- `u = x / r`. -/
theorem u_apply (i : S4194304x3.Idx) :
    val_main_v21 (F := Ideal) x0 i = rU (fun k => x0 (ix2 (i 0) k)) (i 1) := by
  rw [val_main_v21_apply, val_main_v20_apply, norm_apply, congrArg x0 (eq_ix2 i)]
  rfl

/-- `1/(r·r)`, the copy the quotient's pull-back reads. -/
theorem invsq_apply (i : S4194304x1.Idx) :
    val_main_v24 (F := Ideal) x0 i = rInvSq (fun k => x0 (ix2 (i 0) k)) := by
  rw [val_main_v24_apply, val_main_v23_apply, val_main_cst_5_apply, val_main_v22_apply, norm_apply]
  rfl

/-- `1/(r·r)`, the copy the reciprocal's pull-back reads. -/
theorem invsq17_apply (i : S4194304x1.Idx) :
    val_main_v17 (F := Ideal) x0 i = rInvSq (fun k => x0 (ix2 (i 0) k)) := by
  rw [val_main_v17_apply, val_main_v16_apply, val_main_cst_3_apply, val_main_v15_apply, norm_apply]
  rfl

/-- `1/(2r)`, the root's derivative. -/
theorem halfinv_apply (i : S4194304x1.Idx) :
    val_main_v12_1 (F := Ideal) x0 i = Ideal.div half (rR (fun k => x0 (ix2 (i 0) k))) := by
  rw [val_main_v12_1_apply, val_main_call2_v4_apply, val_main_call2_cst_0_apply, norm_apply]
  rfl

/-- The identity matrix. -/
theorem eye_apply (i : S3x3.Idx) : val_main_v33 (F := Ideal) i = eye (i 0) (i 1) := by
  rw [val_main_v33_apply, val_main_v32_apply, val_main_v31_apply, val_main_v30_apply, val_main_v27_apply,
    val_main_v29_apply, val_main_c_apply, val_main_v28_apply]
  rfl

/-- The cotangent of `u`: `g · eᵢ`. -/
theorem ge_apply (i : S4194304x3x3.Idx) :
    val_main_v38 (F := Ideal) x0 i = rGE (fun k => x0 (ix2 (i 0) k)) (i 1) (i 2) := by
  rw [val_main_v38_apply, val_main_v36_apply, val_main_v34_apply, g_apply, val_main_v37_apply,
    val_main_v35_apply, eye_apply]
  rfl

/-- The cotangent of `g`: `eᵢ · u`. -/
theorem ctg_apply (i : S4194304x3.Idx) :
    val_main_v44 (F := Ideal) x0 i = rCtG (fun k => x0 (ix2 (i 0) k)) (i 1) := by
  rw [val_main_v44_apply, val_main_cst_6_apply]
  unfold rCtG
  refine congrArg (fun s => zero + s) (Finset.sum_congr rfl fun k _ => ?_)
  rw [val_main_v43_apply, val_main_v41_apply, val_main_v40_apply, eye_apply, val_main_v42_apply,
    val_main_v39_apply, u_apply]
  rfl

/-- The quotient's pull-back to the norm, before its sign. -/
theorem quot_apply (i : S4194304x3.Idx) :
    val_main_v52 (F := Ideal) x0 i = rQuot (fun k => x0 (ix2 (i 0) k)) (i 1) := by
  rw [val_main_v52_apply, val_main_cst_7_apply]
  unfold rQuot
  refine congrArg (fun s => zero + s) (Finset.sum_congr rfl fun k _ => ?_)
  rw [val_main_v51_apply, val_main_v48_apply, ge_apply, val_main_v47_apply, val_main_v46_apply, invsq_apply,
    val_main_v50_apply, val_main_v49_apply,
    show idx_main_v49 (idx_main_v50 (idx_main_v52 i k)) = ix2 (i 0) k by idx2]
  rfl

/-- A reshape that appends an axis of size one reads the same two coordinates. -/
theorem reshape_idx (i : S4194304x3x1.Idx) : idx_main_v53 i = @ix2 4194304 3 (i 0) (i 1) := by
  have h0 : (i 0).val < 4194304 := (i 0).isLt
  have h1 : (i 1).val < 3 := (i 1).isLt
  have h2 : (i 2).val < 1 := (i 2).isLt
  funext a
  match a with
  | ⟨0, _⟩ => exact Fin.ext (show (((i 0).val * 3 + (i 1).val) * 1 + (i 2).val) / 3 = (i 0).val by omega)
  | ⟨1, _⟩ => exact Fin.ext (show (((i 0).val * 3 + (i 1).val) * 1 + (i 2).val) % 3 = (i 1).val by omega)

theorem reshape_idx' (i : S4194304x3x1.Idx) : idx_main_v45 i = @ix2 4194304 3 (i 0) (i 1) := reshape_idx i

/-- The cotangent of the norm. -/
theorem ctr_apply (i : S4194304x3x1.Idx) :
    val_main_v65 (F := Ideal) x0 i = rCtR (fun k => x0 (ix2 (i 0) k)) (i 1) := by
  rw [val_main_v65_apply, val_main_v54_apply, val_main_v53_apply, reshape_idx, quot_apply,
    val_main_v64_apply, val_main_v63_apply, val_main_v61_apply, val_main_v58_apply, val_main_v45_apply,
    reshape_idx', ctg_apply, val_main_v60_apply, val_main_v59_apply, invsq17_apply, val_main_v62_apply,
    val_main_cst_8_apply]
  rfl

/-- The cotangent of the sum of squares. -/
theorem cts_apply (i : S4194304x3.Idx) :
    val_main_call3_v3 (F := Ideal) x0 i = rCtS (fun k => x0 (ix2 (i 0) k)) (i 1) := by
  rw [val_main_call3_v3_apply, val_main_call3_cst_apply]
  unfold rCtS
  refine congrArg (fun s => zero + s) (Finset.sum_congr rfl fun k _ => ?_)
  rw [val_main_call3_v2_apply, ctr_apply, val_main_call3_v1_apply, val_main_call3_v0_apply, halfinv_apply]
  rfl

/-- The Jacobian. -/
theorem j_apply (i : S4194304x3x3.Idx) :
    val_main_v69 (F := Ideal) x0 i = rJ (fun k => x0 (ix2 (i 0) k)) (i 1) (i 2) := by
  rw [val_main_v69_apply, val_main_v68_apply, val_main_v67_apply, val_main_v57_apply, ge_apply,
    val_main_v56_apply, val_main_v55_apply, norm_apply, val_main_v66_apply, val_main_call3_v7_apply,
    val_main_call3_v10_apply, val_main_call3_v6_apply, val_main_call3_v5_apply, val_main_call3_v4_apply,
    cts_apply, val_main_call3_v9_apply, val_main_call3_v8_apply,
    show idx_main_call3_v5 (idx_main_call3_v6 (idx_main_v68 i)) = ix2 (i 0) (i 2) by idx2,
    show idx_main_call3_v8 (idx_main_call3_v9 (idx_main_v68 i)) = ix2 (i 0) (i 2) by idx2]
  rfl

/-! ## The covariance: the two contractions and the choice -/

/-- `cᵀ Jᵀ`. -/
theorem cj_apply (i : S4194304x3x3.Idx) :
    val_main_v73 (F := Ideal) x0 x1 i
      = rCJ (fun k => x0 (ix2 (i 0) k)) (fun a b => x1 (ix3 (i 0) a b)) (i 1) (i 2) := by
  rw [val_main_v73_apply]
  unfold rCJ
  refine Finset.sum_congr rfl fun k _ => ?_
  rw [j_apply, show lidx_main_v73 i k = ix3 (i 0) k (i 1) by idx3]
  rfl

/-- `J c Jᵀ`. -/
theorem jcj_apply (i : S4194304x3x3.Idx) :
    val_main_v74 (F := Ideal) x0 x1 i
      = rJCJ (fun k => x0 (ix2 (i 0) k)) (fun a b => x1 (ix3 (i 0) a b)) (i 1) (i 2) := by
  rw [val_main_v74_apply]
  unfold rJCJ
  refine Finset.sum_congr rfl fun k _ => ?_
  rw [cj_apply, j_apply]
  rfl

theorem cov_apply (i : S4194304x3x3.Idx) :
    val_main_v76 (F := Ideal) x0 x1 i
      = rCov (fun k => x0 (ix2 (i 0) k)) (fun a b => x1 (ix3 (i 0) a b)) (i 1) (i 2) := by
  rw [val_main_v76_apply, val_main_call5_v0_apply, val_main_v75_apply, val_main_v72_apply, norm4_apply,
    val_main_v71_apply, val_main_cst_9_apply, jcj_apply, congrArg x1 (eq_ix3 i)]
  rfl

end Cert.ReferenceIdeal.RefRows

end
-- ==== Proof.FiniteEntries.lean ====
import proofs.«170970_j54795192762843_1_alg».proof.Pre_finite_inputs
import proofs.«170970_j54795192762843_1_alg».proof.Proof.Gen.Pre_finite_inputs
import Idealize.ShloMosaic.Lib.ReduceAll
import Idealize.ShloMosaic.Lib.ValueIdx
import Idealize.ShloMosaic.PureOps.Ideal
import Mathlib.Data.EReal.Basic

/-!
# From the finiteness predicate to real entries

The predicate `jnp.all(|mean| < +inf) & jnp.all(|cov| < +inf)` being true says that every entry of
both arrays is a real number: over the extended reals `|x| = max x (-x)`, and `max x (-x) < ⊤`
fails at `x = ⊤` (the maximum is `⊤`) and at `x = ⊥` (the maximum is `-⊥ = ⊤`), so only a real
`x` is left.
-/

namespace Cert.Contract.Finite

open Idealize.ShloMosaic Cert.Pre_finite_inputs

/-- A rank-0 array has exactly one index. -/
instance : Subsingleton S_.Idx := ⟨fun a b => funext fun d => d.elim0⟩

/-- The f32 word `0x7F800000` denotes `+∞`. -/
theorem posInf_word : Ideal.ofBits .f32 0x7F800000#32 = (⊤ : EReal) := by
  simp [Ideal.ofBits, Ideal.ieee]

/-- One element of the predicate: `|x| < +∞` holds only of a real `x`. -/
theorem real_of_abs_lt_posInf (x : EReal)
    (h : Ideal.cmp .olt (max x (-x)) (Ideal.ofBits .f32 0x7F800000#32) = 1#1) :
    ∃ r : ℝ, x = (r : EReal) := by
  rw [posInf_word] at h
  induction x using EReal.rec with
  | bot => simp [Ideal.cmp] at h
  | coe r => exact ⟨r, rfl⟩
  | top => simp [Ideal.cmp] at h

/-- The finiteness predicate, all ones, gives a real witness for every entry of both arrays. -/
theorem entries_real [Cert.Pre_finite_inputs.Facts]
    (a0 : FVec Ideal S4194304x3 .f32) (a1 : FVec Ideal S4194304x3x3 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  -- the conjunction of the two `all`s
  obtain ⟨hm, hc⟩ := IntOp.andi_eq_one.1 h0
  refine ⟨fun i => ?_, fun i => ?_⟩
  · -- every entry of the first array passes `|x| < +∞`
    have e := Host.reduce_andi_all _ _ _ _ _ hm i
    exact real_of_abs_lt_posInf (a0 i) e
  · have e := Host.reduce_andi_all _ _ _ _ _ hc i
    exact real_of_abs_lt_posInf (a1 i) e

end Cert.Contract.Finite
-- ==== Proof.BlockRows.lean ====
/-
  The kernel's per-sample values. A grid point holds a block of 4096 samples: the means as a [4096, 3] array and the
  covariances as [4096, 9], entry (i, j) of a sample's covariance in column 3 i + j. The body transposes both so that
  every per-sample quantity is a [1, 4096] row, computes with rows, and stores the results row by row into two
  scratch arrays ([3, 4096] and [9, 4096]) which it transposes back into the output blocks.

  Here each row the body forms is read at a sample `t`: it is the corresponding quantity of `Cert.Contract` (the norm,
  `a`, `b`, `v`, `w`, `s`, the contracted mean and covariance entries) of sample `t`'s mean and covariance. Only the
  transposes and the row extractions move indices; everything else is pointwise.
-/
import proofs.«170970_j54795192762843_1_alg».proof.Proof.Gen.KernelIdeal.Frame
import proofs.«170970_j54795192762843_1_alg».proof.Proof.RowForms
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx

namespace Cert.KernelIdeal.Rows

open Cert.KernelIdeal Cert.KernelIdeal.Gen Cert.Contract

/-- Sample `t` of a block of means. -/
def xs (x0 : Vec Ideal S4096x3 .f32) (t : Fin 4096) : Fin 3 → EReal := fun a => x0 (ix2 t a)
/-- Sample `t` of a block of covariances: entry `(a, b)` sits in column `3 a + b`. -/
def cs (x1 : Vec Ideal S4096x9 .f32) (t : Fin 4096) : Fin 3 → Fin 3 → EReal :=
  fun a b => x1 (ix2 t ⟨3 * a.val + b.val, by have := a.isLt; have := b.isLt; omega⟩)

variable (x0 : Vec Ideal S4096x3 .f32) (x1 : Vec Ideal S4096x9 .f32) (t : Fin 4096)

/-! ## The rows of the transposed blocks -/

theorem mean0_at : k0_pay6 x0 (ix2 (0 : Fin 1) t) = xs x0 t 0 := by
  unfold k0_pay6 k0_pay4
  dsimp only
  rw [slice2_axis0_apply 0 _ _ (0 : Fin 1) t (0 : Fin 3) rfl, transpose_ix2_apply]
  rfl
theorem mean1_at : k0_pay7 x0 (ix2 (0 : Fin 1) t) = xs x0 t 1 := by
  unfold k0_pay7 k0_pay4
  dsimp only
  rw [slice2_axis0_apply 1 _ _ (0 : Fin 1) t (1 : Fin 3) rfl, transpose_ix2_apply]
  rfl
theorem mean2_at : k0_pay8 x0 (ix2 (0 : Fin 1) t) = xs x0 t 2 := by
  unfold k0_pay8 k0_pay4
  dsimp only
  rw [slice2_axis0_apply 2 _ _ (0 : Fin 1) t (2 : Fin 3) rfl, transpose_ix2_apply]
  rfl

/-- The transposed covariance block at `(q, t)` is the block at `(t, q)`. -/
theorem covT_at (q : Fin 9) : k0_pay5 x1 (ix2 q t) = x1 (ix2 t q) := by
  unfold k0_pay5
  dsimp only
  rw [transpose_ix2_apply, shapeCast_self]

/-! ## The norm, its reciprocal, `a`, `b` and the two masks -/

theorem norm_at : k0_pay9 x0 (ix2 (0 : Fin 1) t) = kR (xs x0 t) := by
  unfold kR
  rw [← mean0_at x0 t, ← mean1_at x0 t, ← mean2_at x0 t]
  rfl
theorem inv_at : k0_pay10 x0 (ix2 (0 : Fin 1) t) = kInv (xs x0 t) := by
  unfold kInv
  rw [← norm_at x0 t]
  rfl
theorem inv2_at : k0_pay11 x0 (ix2 (0 : Fin 1) t) = kInv2 (xs x0 t) := by
  unfold kInv2
  rw [← inv_at x0 t]
  rfl
theorem a_at : k0_pay12 x0 (ix2 (0 : Fin 1) t) = kA (xs x0 t) := by
  unfold kA
  rw [← inv_at x0 t, ← inv2_at x0 t]
  rfl
theorem b_at : k0_pay13 x0 (ix2 (0 : Fin 1) t) = kB (xs x0 t) := by
  unfold kB kInv4 kInv3
  rw [← inv_at x0 t, ← inv2_at x0 t]
  rfl
theorem lt_at : k0_pay14 x0 (ix2 (0 : Fin 1) t) = kLt (xs x0 t) := by
  unfold kLt
  rw [← norm_at x0 t]
  rfl
theorem ge_at : k0_pay15 x0 (ix2 (0 : Fin 1) t) = kGe (xs x0 t) := by
  unfold kGe
  rw [← lt_at x0 t]
  rfl

/-! ## The three rows of the contracted means -/

theorem meanOut0_at : k0_pay16 x0 (ix2 (0 : Fin 1) t) = kMean (xs x0 t) 0 := by
  simp only [k0_pay16, shapeCast_self]
  unfold kMean
  rw [← lt_at x0 t, ← a_at x0 t, ← mean0_at x0 t]
  rfl
theorem meanOut1_at : k0_pay17 x0 (ix2 (0 : Fin 1) t) = kMean (xs x0 t) 1 := by
  simp only [k0_pay17, shapeCast_self]
  unfold kMean
  rw [← lt_at x0 t, ← a_at x0 t, ← mean1_at x0 t]
  rfl
theorem meanOut2_at : k0_pay19 (k0_pay18 x0) (ix2 (0 : Fin 1) t) = kMean (xs x0 t) 2 := by
  simp only [k0_pay19, k0_pay18, shapeCast_self]
  unfold kMean
  rw [← lt_at x0 t, ← a_at x0 t, ← mean2_at x0 t]
  rfl

/-! ## The nine rows of the transposed covariance -/

theorem cov00_at : k0_pay21 (k0_pay5 x1) (ix2 (0 : Fin 1) t) = cs x1 t 0 0 := by
  unfold k0_pay21
  rw [slice2_axis0_apply 0 _ _ (0 : Fin 1) t (0 : Fin 9) rfl, covT_at]
  rfl
theorem cov01_at : k0_pay22 (k0_pay5 x1) (ix2 (0 : Fin 1) t) = cs x1 t 0 1 := by
  unfold k0_pay22
  rw [slice2_axis0_apply 1 _ _ (0 : Fin 1) t (1 : Fin 9) rfl, covT_at]
  rfl
theorem cov02_at : k0_pay23 (k0_pay5 x1) (ix2 (0 : Fin 1) t) = cs x1 t 0 2 := by
  unfold k0_pay23
  rw [slice2_axis0_apply 2 _ _ (0 : Fin 1) t (2 : Fin 9) rfl, covT_at]
  rfl
theorem cov10_at : k0_pay24 (k0_pay5 x1) (ix2 (0 : Fin 1) t) = cs x1 t 1 0 := by
  unfold k0_pay24
  rw [slice2_axis0_apply 3 _ _ (0 : Fin 1) t (3 : Fin 9) rfl, covT_at]
  rfl
theorem cov11_at : k0_pay25 (k0_pay5 x1) (ix2 (0 : Fin 1) t) = cs x1 t 1 1 := by
  unfold k0_pay25
  rw [slice2_axis0_apply 4 _ _ (0 : Fin 1) t (4 : Fin 9) rfl, covT_at]
  rfl
theorem cov12_at : k0_pay26 (k0_pay5 x1) (ix2 (0 : Fin 1) t) = cs x1 t 1 2 := by
  unfold k0_pay26
  rw [slice2_axis0_apply 5 _ _ (0 : Fin 1) t (5 : Fin 9) rfl, covT_at]
  rfl
theorem cov20_at : k0_pay27 (k0_pay5 x1) (ix2 (0 : Fin 1) t) = cs x1 t 2 0 := by
  unfold k0_pay27
  rw [slice2_axis0_apply 6 _ _ (0 : Fin 1) t (6 : Fin 9) rfl, covT_at]
  rfl
theorem cov21_at : k0_pay28 (k0_pay5 x1) (ix2 (0 : Fin 1) t) = cs x1 t 2 1 := by
  unfold k0_pay28
  rw [slice2_axis0_apply 7 _ _ (0 : Fin 1) t (7 : Fin 9) rfl, covT_at]
  rfl
theorem cov22_at : k0_pay29 (k0_pay5 x1) (ix2 (0 : Fin 1) t) = cs x1 t 2 2 := by
  unfold k0_pay29
  rw [slice2_axis0_apply 8 _ _ (0 : Fin 1) t (8 : Fin 9) rfl, covT_at]
  rfl

/-! ## `v = c x`, `w = cᵀ x`, `s = x · v` and the three products of `a` and `b` -/

/-- The rows the body computes with: the transposed covariance and the three rows of the transposed mean. -/
abbrev cT := k0_pay5 x1
abbrev m0 := k0_pay6 x0
abbrev m1 := k0_pay7 x0
abbrev m2 := k0_pay8 x0
abbrev vRow0 := k0_pay30 (cT x1) (m0 x0) (m1 x0) (m2 x0)
abbrev vRow1 := k0_pay31 (cT x1) (m0 x0) (m1 x0) (m2 x0)
abbrev vRow2 := k0_pay32 (cT x1) (m0 x0) (m1 x0) (m2 x0)
abbrev wRow0 := k0_pay33 (cT x1) (m0 x0) (m1 x0) (m2 x0)
abbrev wRow1 := k0_pay34 (cT x1) (m0 x0) (m1 x0) (m2 x0)
abbrev wRow2 := k0_pay35 (cT x1) (m0 x0) (m1 x0) (m2 x0)
abbrev sRow := k0_pay36 (cT x1) (m0 x0) (m1 x0) (m2 x0)
abbrev aaRow := k0_pay37 (k0_pay12 x0)
abbrev abRow := k0_pay38 (k0_pay12 x0) (k0_pay13 x0)
abbrev bbRow := k0_pay39 (k0_pay13 x0)
abbrev geRow := k0_pay15 x0

theorem v0_at : vRow0 x0 x1 (ix2 (0 : Fin 1) t) = kV (xs x0 t) (cs x1 t) 0 := by
  unfold kV
  rw [← cov00_at x1 t, ← cov01_at x1 t, ← cov02_at x1 t, ← mean0_at x0 t, ← mean1_at x0 t, ← mean2_at x0 t]
  rfl
theorem v1_at : vRow1 x0 x1 (ix2 (0 : Fin 1) t) = kV (xs x0 t) (cs x1 t) 1 := by
  unfold kV
  rw [← cov10_at x1 t, ← cov11_at x1 t, ← cov12_at x1 t, ← mean0_at x0 t, ← mean1_at x0 t, ← mean2_at x0 t]
  rfl
theorem v2_at : vRow2 x0 x1 (ix2 (0 : Fin 1) t) = kV (xs x0 t) (cs x1 t) 2 := by
  unfold kV
  rw [← cov20_at x1 t, ← cov21_at x1 t, ← cov22_at x1 t, ← mean0_at x0 t, ← mean1_at x0 t, ← mean2_at x0 t]
  rfl
theorem w0_at : wRow0 x0 x1 (ix2 (0 : Fin 1) t) = kW (xs x0 t) (cs x1 t) 0 := by
  unfold kW
  rw [← cov00_at x1 t, ← cov10_at x1 t, ← cov20_at x1 t, ← mean0_at x0 t, ← mean1_at x0 t, ← mean2_at x0 t]
  rfl
theorem w1_at : wRow1 x0 x1 (ix2 (0 : Fin 1) t) = kW (xs x0 t) (cs x1 t) 1 := by
  unfold kW
  rw [← cov01_at x1 t, ← cov11_at x1 t, ← cov21_at x1 t, ← mean0_at x0 t, ← mean1_at x0 t, ← mean2_at x0 t]
  rfl
theorem w2_at : wRow2 x0 x1 (ix2 (0 : Fin 1) t) = kW (xs x0 t) (cs x1 t) 2 := by
  unfold kW
  rw [← cov02_at x1 t, ← cov12_at x1 t, ← cov22_at x1 t, ← mean0_at x0 t, ← mean1_at x0 t, ← mean2_at x0 t]
  rfl
theorem s_at : sRow x0 x1 (ix2 (0 : Fin 1) t) = kS (xs x0 t) (cs x1 t) := by
  unfold kS
  rw [← v0_at x0 x1 t, ← v1_at x0 x1 t, ← v2_at x0 x1 t, ← mean0_at x0 t, ← mean1_at x0 t, ← mean2_at x0 t]
  rfl

/-! ## The nine rows of the contracted covariance -/

theorem covOut00_at : k0_pay40 (m0 x0) (geRow x0) (k0_pay21 (cT x1)) (vRow0 x0 x1) (wRow0 x0 x1) (sRow x0 x1) (aaRow x0) (abRow x0) (bbRow x0) (ix2 (0 : Fin 1) t) = kCov (xs x0 t) (cs x1 t) 0 0 := by
  simp only [k0_pay40, shapeCast_self]
  unfold kCov kNew
  rw [← ge_at x0 t, ← a_at x0 t, ← b_at x0 t, ← v0_at x0 x1 t, ← w0_at x0 x1 t, ← s_at x0 x1 t, ← cov00_at x1 t, ← mean0_at x0 t]
  rfl
theorem covOut01_at : k0_pay41 (m0 x0) (m1 x0) (geRow x0) (k0_pay22 (cT x1)) (vRow0 x0 x1) (wRow1 x0 x1) (sRow x0 x1) (aaRow x0) (abRow x0) (bbRow x0) (ix2 (0 : Fin 1) t) = kCov (xs x0 t) (cs x1 t) 0 1 := by
  simp only [k0_pay41, shapeCast_self]
  unfold kCov kNew
  rw [← ge_at x0 t, ← a_at x0 t, ← b_at x0 t, ← v0_at x0 x1 t, ← w1_at x0 x1 t, ← s_at x0 x1 t, ← cov01_at x1 t, ← mean0_at x0 t, ← mean1_at x0 t]
  rfl
theorem covOut02_at : k0_pay42 (m0 x0) (m2 x0) (geRow x0) (k0_pay23 (cT x1)) (vRow0 x0 x1) (wRow2 x0 x1) (sRow x0 x1) (aaRow x0) (abRow x0) (bbRow x0) (ix2 (0 : Fin 1) t) = kCov (xs x0 t) (cs x1 t) 0 2 := by
  simp only [k0_pay42, shapeCast_self]
  unfold kCov kNew
  rw [← ge_at x0 t, ← a_at x0 t, ← b_at x0 t, ← v0_at x0 x1 t, ← w2_at x0 x1 t, ← s_at x0 x1 t, ← cov02_at x1 t, ← mean0_at x0 t, ← mean2_at x0 t]
  rfl
theorem covOut10_at : k0_pay45 (geRow x0) (k0_pay24 (cT x1)) (k0_pay43 (m0 x0) (m1 x0) (k0_pay24 (cT x1)) (vRow1 x0 x1) (wRow0 x0 x1) (aaRow x0) (abRow x0)) (k0_pay44 (m0 x0) (m1 x0) (sRow x0 x1) (bbRow x0)) (ix2 (0 : Fin 1) t) = kCov (xs x0 t) (cs x1 t) 1 0 := by
  simp only [k0_pay45, k0_pay43, k0_pay44, shapeCast_self]
  unfold kCov kNew
  rw [← ge_at x0 t, ← a_at x0 t, ← b_at x0 t, ← v1_at x0 x1 t, ← w0_at x0 x1 t, ← s_at x0 x1 t, ← cov10_at x1 t, ← mean1_at x0 t, ← mean0_at x0 t]
  rfl
theorem covOut11_at : k0_pay46 (m1 x0) (geRow x0) (k0_pay25 (cT x1)) (vRow1 x0 x1) (wRow1 x0 x1) (sRow x0 x1) (aaRow x0) (abRow x0) (bbRow x0) (ix2 (0 : Fin 1) t) = kCov (xs x0 t) (cs x1 t) 1 1 := by
  simp only [k0_pay46, shapeCast_self]
  unfold kCov kNew
  rw [← ge_at x0 t, ← a_at x0 t, ← b_at x0 t, ← v1_at x0 x1 t, ← w1_at x0 x1 t, ← s_at x0 x1 t, ← cov11_at x1 t, ← mean1_at x0 t]
  rfl
theorem covOut12_at : k0_pay47 (m1 x0) (m2 x0) (geRow x0) (k0_pay26 (cT x1)) (vRow1 x0 x1) (wRow2 x0 x1) (sRow x0 x1) (aaRow x0) (abRow x0) (bbRow x0) (ix2 (0 : Fin 1) t) = kCov (xs x0 t) (cs x1 t) 1 2 := by
  simp only [k0_pay47, shapeCast_self]
  unfold kCov kNew
  rw [← ge_at x0 t, ← a_at x0 t, ← b_at x0 t, ← v1_at x0 x1 t, ← w2_at x0 x1 t, ← s_at x0 x1 t, ← cov12_at x1 t, ← mean1_at x0 t, ← mean2_at x0 t]
  rfl
theorem covOut20_at : k0_pay48 (m0 x0) (m2 x0) (geRow x0) (k0_pay27 (cT x1)) (vRow2 x0 x1) (wRow0 x0 x1) (sRow x0 x1) (aaRow x0) (abRow x0) (bbRow x0) (ix2 (0 : Fin 1) t) = kCov (xs x0 t) (cs x1 t) 2 0 := by
  simp only [k0_pay48, shapeCast_self]
  unfold kCov kNew
  rw [← ge_at x0 t, ← a_at x0 t, ← b_at x0 t, ← v2_at x0 x1 t, ← w0_at x0 x1 t, ← s_at x0 x1 t, ← cov20_at x1 t, ← mean2_at x0 t, ← mean0_at x0 t]
  rfl
theorem covOut21_at : k0_pay1 (m1 x0) (m2 x0) (geRow x0) (k0_pay28 (cT x1)) (vRow2 x0 x1) (wRow1 x0 x1) (sRow x0 x1) (abRow x0) (bbRow x0) (k0_pay49 (k0_pay28 (cT x1)) (aaRow x0)) (ix2 (0 : Fin 1) t) = kCov (xs x0 t) (cs x1 t) 2 1 := by
  simp only [k0_pay1, k0_pay49, shapeCast_self]
  unfold kCov kNew
  rw [← ge_at x0 t, ← a_at x0 t, ← b_at x0 t, ← v2_at x0 x1 t, ← w1_at x0 x1 t, ← s_at x0 x1 t, ← cov21_at x1 t, ← mean2_at x0 t, ← mean1_at x0 t]
  rfl
theorem covOut22_at : k0_pay2 (m2 x0) (geRow x0) (k0_pay29 (cT x1)) (vRow2 x0 x1) (wRow2 x0 x1) (sRow x0 x1) (aaRow x0) (abRow x0) (bbRow x0) (ix2 (0 : Fin 1) t) = kCov (xs x0 t) (cs x1 t) 2 2 := by
  simp only [k0_pay2, shapeCast_self]
  unfold kCov kNew
  rw [← ge_at x0 t, ← a_at x0 t, ← b_at x0 t, ← v2_at x0 x1 t, ← w2_at x0 x1 t, ← s_at x0 x1 t, ← cov22_at x1 t, ← mean2_at x0 t]
  rfl

end Cert.KernelIdeal.Rows

end
-- ==== Proof.BlockOut.lean ====
/-
  What the body leaves in the two output blocks of a grid point, read at an index. The block of contracted means is
  the transpose of a [3, 4096] scratch that three row stores filled, the block of contracted covariances the
  transpose of a [9, 4096] scratch that nine row stores filled; row `q` of a scratch at sample `t` is the value the
  row lemmas name, so entry `(t, k)` of the means block is the contracted mean's coordinate `k` of sample `t`, and
  entry `(t, q)` of the covariance block is the contracted covariance's entry `(q / 3, q % 3)` of sample `t`.
-/
import proofs.«170970_j54795192762843_1_alg».proof.Proof.BlockRows
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx

namespace Cert.KernelIdeal.Rows

open Cert.KernelIdeal Cert.KernelIdeal.Gen Cert.Contract

theorem hz : (![0, 0] : Fin 2 → Nat) = fun _ => 0 := funext fun a => by fin_cases a <;> rfl

/-- Row `o` of an `R`-row scratch, taken whole: its local index `(0, s)` is the scratch's `(o, s)`. -/
theorem emb_row {R : Nat} (o : Nat) (inb : ∀ a, (![o, 0] : Fin 2 → Nat) a + (![1, 4096] : Fin 2 → Nat) a ≤ (⟨2, ![R, 4096]⟩ : Shape).size a)
    (s : Fin 4096) (ho : o < R) :
    (Rect.unit (s := (⟨2, ![R, 4096]⟩ : Shape)) ![o, 0] ![1, 4096] inb).emb (ix2 (0 : Fin 1) s) = ix2 ⟨o, ho⟩ s :=
  funext fun a => Fin.ext (by
    match a with
    | ⟨0, _⟩ => show o + 1 * 0 = o; omega
    | ⟨1, _⟩ => show 0 + 1 * s.val = s.val; omega)

/-- A payload stored through row `o` taken whole agrees with a function `G` of the scratch's index as soon as it does
    sample by sample. -/
theorem row_piece {R : Nat} (G : (⟨2, ![R, 4096]⟩ : Shape).Idx → Elt Ideal .f32) (o : Nat) (ho : o < R)
    (inb : ∀ a, (![o, 0] : Fin 2 → Nat) a + (![1, 4096] : Fin 2 → Nat) a ≤ (⟨2, ![R, 4096]⟩ : Shape).size a)
    (w : (⟨2, ![1, 4096]⟩ : Shape).Idx → Elt Ideal .f32)
    (h : ∀ s : Fin 4096, w (ix2 (0 : Fin 1) s) = G (ix2 ⟨o, ho⟩ s))
    (x : (⟨2, ![1, 4096]⟩ : Shape).Idx) :
    w x = G ((Rect.unit (s := (⟨2, ![R, 4096]⟩ : Shape)) ![o, 0] ![1, 4096] inb).emb x) := by
  obtain ⟨u, s, rfl⟩ : ∃ (u : Fin 1) (s : Fin 4096), x = ix2 u s := ⟨x 0, x 1, eq_ix2 x⟩
  obtain rfl : u = 0 := Subsingleton.elim _ _
  rw [emb_row o inb s ho]
  exact h s

/-- The same, said of the stored piece: the form a list of pieces is checked in. -/
theorem row_piece' {R : Nat} (G : (⟨2, ![R, 4096]⟩ : Shape).Idx → Elt Ideal .f32) (o : Nat) (ho : o < R)
    (inb : ∀ a, (![o, 0] : Fin 2 → Nat) a + (![1, 4096] : Fin 2 → Nat) a ≤ (⟨2, ![R, 4096]⟩ : Shape).size a)
    (w : (⟨2, ![1, 4096]⟩ : Shape).Idx → Elt Ideal .f32)
    (h : ∀ s : Fin 4096, w (ix2 (0 : Fin 1) s) = G (ix2 ⟨o, ho⟩ s)) :
    ∀ x : ((⟨Rect.unit (s := (⟨2, ![R, 4096]⟩ : Shape)) ![o, 0] ![1, 4096] inb, w⟩ : View.Piece (Elt Ideal) ⟨2, ![R, 4096]⟩ .f32).1).shape.Idx,
      (⟨Rect.unit (s := (⟨2, ![R, 4096]⟩ : Shape)) ![o, 0] ![1, 4096] inb, w⟩ : View.Piece (Elt Ideal) ⟨2, ![R, 4096]⟩ .f32).2 x
        = G ((⟨Rect.unit (s := (⟨2, ![R, 4096]⟩ : Shape)) ![o, 0] ![1, 4096] inb, w⟩ : View.Piece (Elt Ideal) ⟨2, ![R, 4096]⟩ .f32).1.emb x) :=
  fun x => row_piece G o ho inb w h x

/-- The means scratch after its three row stores, as one function of the index. -/
abbrev meanScr (x0 : Vec Ideal S4096x3 .f32) : S3x4096.Idx → Elt Ideal .f32 := fun y => kMean (xs x0 (y 1)) (y 0)

/-- Entry `q` of a covariance laid out nine in a row is entry `(q / 3, q % 3)` of the matrix. -/
def rowOf (q : Fin 9) : Fin 3 := ⟨q.val / 3, by have h9 := q.isLt; omega⟩
def colOf (q : Fin 9) : Fin 3 := ⟨q.val % 3, Nat.mod_lt _ (by decide)⟩

/-- The covariance scratch after its nine row stores: row `q` holds entry `(q / 3, q % 3)`. -/
abbrev covScr (x0 : Vec Ideal S4096x3 .f32) (x1 : Vec Ideal S4096x9 .f32) : S9x4096.Idx → Elt Ideal .f32 := fun y =>
  kCov (xs x0 (y 1)) (cs x1 (y 1)) (rowOf (y 0)) (colOf (y 0))

theorem meanBlock_apply (c : Dev nD) (i : grid0.Coords) (arg1 : Memref sig .tc .vmem S4096x3 .f32) (harg1 : arg1.IsWhole) (arg2 : Memref sig .tc .vmem S4096x9 .f32) (harg2 : arg2.IsWhole) (arg3 : Memref sig .tc .vmem S4096x3 .f32) (harg3 : arg3.IsWhole) (arg4 : Memref sig .tc .vmem S4096x9 .f32) (harg4 : arg4.IsWhole) (arg5 : Memref sig .tc .vmem S3x4096 .f32) (harg5 : arg5.IsWhole) (arg6 : Memref sig .tc .vmem S9x4096 .f32) (harg6 : arg6.IsWhole)
    (x0 : Vec Ideal S4096x3 .f32) (x1 : Vec Ideal S4096x9 .f32) (t : Fin 4096) (k : Fin 3) :
    out0_A_2 (F := Ideal) c i arg1 harg1 arg2 harg2 arg3 harg3 arg4 harg4 arg5 harg5 arg6 harg6 x0 x1 (ix2 t k) = kMean (xs x0 t) k := by
  unfold out0_A_2
  rw [View.read_writes_eq_canon _ _ _ (cover0_A_2 c i arg1 harg1 arg2 harg2 arg3 harg3 arg4 harg4 arg5 harg5 arg6 harg6 x0 x1)]
  unfold kernelRun0_A
  dsimp only
  sl_unfold_words
  rw [View.canon_unit_zero hz]
  simp only [View.readAt_eq_ld, harg1.read_unread, View.ld_unit_zero (S := S4096x3) hz]
  unfold k0_pay20
  dsimp only
  rw [transpose_ix2_apply]
  rw [View.readCov_eq_canon_ld _ _ _ (fun y => View.cover_of_tiledL (s := S3x4096) _ S1x4096.size (by sl_kernel_rfl) y),
    View.ld_unit_zero (S := S3x4096) hz]
  refine View.canon_apply_of_pieces (Val := Elt Ideal) (S := S3x4096) (e := .f32) (meanScr x0) _ ?_ (ix2 k t) (View.cover_of_tiledL (s := S3x4096) _ S1x4096.size (by sl_kernel_rfl) _)
  intro p hp
  simp only [List.mem_cons, List.not_mem_nil, or_false] at hp
  rcases hp with rfl | rfl | rfl
  · exact row_piece' (R := 3) (meanScr x0) 2 (of_decide_eq_true rfl) _ _ (fun s => meanOut2_at x0 s)
  · exact row_piece' (R := 3) (meanScr x0) 1 (of_decide_eq_true rfl) _ _ (fun s => meanOut1_at x0 s)
  · exact row_piece' (R := 3) (meanScr x0) 0 (of_decide_eq_true rfl) _ _ (fun s => meanOut0_at x0 s)

theorem covBlock_apply (c : Dev nD) (i : grid0.Coords) (arg1 : Memref sig .tc .vmem S4096x3 .f32) (harg1 : arg1.IsWhole) (arg2 : Memref sig .tc .vmem S4096x9 .f32) (harg2 : arg2.IsWhole) (arg3 : Memref sig .tc .vmem S4096x3 .f32) (harg3 : arg3.IsWhole) (arg4 : Memref sig .tc .vmem S4096x9 .f32) (harg4 : arg4.IsWhole) (arg5 : Memref sig .tc .vmem S3x4096 .f32) (harg5 : arg5.IsWhole) (arg6 : Memref sig .tc .vmem S9x4096 .f32) (harg6 : arg6.IsWhole)
    (x0 : Vec Ideal S4096x3 .f32) (x1 : Vec Ideal S4096x9 .f32) (t : Fin 4096) (q : Fin 9) :
    out0_A_3 (F := Ideal) c i arg1 harg1 arg2 harg2 arg3 harg3 arg4 harg4 arg5 harg5 arg6 harg6 x0 x1 (ix2 t q) = covScr x0 x1 (ix2 q t) := by
  unfold out0_A_3
  rw [View.read_writes_eq_canon _ _ _ (cover0_A_3 c i arg1 harg1 arg2 harg2 arg3 harg3 arg4 harg4 arg5 harg5 arg6 harg6 x0 x1)]
  unfold kernelRun0_A
  dsimp only
  sl_unfold_words
  rw [View.canon_unit_zero hz]
  simp only [View.readAt_eq_ld, harg1.read_unread, harg2.read_unread, View.ld_unit_zero (S := S4096x3) hz, View.ld_unit_zero (S := S4096x9) hz]
  unfold k0_pay3
  dsimp only
  rw [transpose_ix2_apply]
  rw [View.readCov_eq_canon_ld _ _ _ (fun y => View.cover_of_tiledL (s := S9x4096) _ S1x4096.size (by sl_kernel_rfl) y),
    View.ld_unit_zero (S := S9x4096) hz]
  refine View.canon_apply_of_pieces (Val := Elt Ideal) (S := S9x4096) (e := .f32) (covScr x0 x1) _ ?_ (ix2 q t) (View.cover_of_tiledL (s := S9x4096) _ S1x4096.size (by sl_kernel_rfl) _)
  intro p hp
  simp only [List.mem_cons, List.not_mem_nil, or_false] at hp
  rcases hp with rfl | rfl | rfl | rfl | rfl | rfl | rfl | rfl | rfl
  · exact row_piece' (R := 9) (covScr x0 x1) 8 (of_decide_eq_true rfl) _ _ (fun s => (covOut22_at x0 x1 s).trans
      (congrArg₂ (kCov (xs x0 s) (cs x1 s)) (by decide : (2 : Fin 3) = rowOf (8 : Fin 9)) (by decide : (2 : Fin 3) = colOf (8 : Fin 9))))
  · exact row_piece' (R := 9) (covScr x0 x1) 7 (of_decide_eq_true rfl) _ _ (fun s => (covOut21_at x0 x1 s).trans
      (congrArg₂ (kCov (xs x0 s) (cs x1 s)) (by decide : (2 : Fin 3) = rowOf (7 : Fin 9)) (by decide : (1 : Fin 3) = colOf (7 : Fin 9))))
  · exact row_piece' (R := 9) (covScr x0 x1) 6 (of_decide_eq_true rfl) _ _ (fun s => (covOut20_at x0 x1 s).trans
      (congrArg₂ (kCov (xs x0 s) (cs x1 s)) (by decide : (2 : Fin 3) = rowOf (6 : Fin 9)) (by decide : (0 : Fin 3) = colOf (6 : Fin 9))))
  · exact row_piece' (R := 9) (covScr x0 x1) 5 (of_decide_eq_true rfl) _ _ (fun s => (covOut12_at x0 x1 s).trans
      (congrArg₂ (kCov (xs x0 s) (cs x1 s)) (by decide : (1 : Fin 3) = rowOf (5 : Fin 9)) (by decide : (2 : Fin 3) = colOf (5 : Fin 9))))
  · exact row_piece' (R := 9) (covScr x0 x1) 4 (of_decide_eq_true rfl) _ _ (fun s => (covOut11_at x0 x1 s).trans
      (congrArg₂ (kCov (xs x0 s) (cs x1 s)) (by decide : (1 : Fin 3) = rowOf (4 : Fin 9)) (by decide : (1 : Fin 3) = colOf (4 : Fin 9))))
  · exact row_piece' (R := 9) (covScr x0 x1) 3 (of_decide_eq_true rfl) _ _ (fun s => (covOut10_at x0 x1 s).trans
      (congrArg₂ (kCov (xs x0 s) (cs x1 s)) (by decide : (1 : Fin 3) = rowOf (3 : Fin 9)) (by decide : (0 : Fin 3) = colOf (3 : Fin 9))))
  · exact row_piece' (R := 9) (covScr x0 x1) 2 (of_decide_eq_true rfl) _ _ (fun s => (covOut02_at x0 x1 s).trans
      (congrArg₂ (kCov (xs x0 s) (cs x1 s)) (by decide : (0 : Fin 3) = rowOf (2 : Fin 9)) (by decide : (2 : Fin 3) = colOf (2 : Fin 9))))
  · exact row_piece' (R := 9) (covScr x0 x1) 1 (of_decide_eq_true rfl) _ _ (fun s => (covOut01_at x0 x1 s).trans
      (congrArg₂ (kCov (xs x0 s) (cs x1 s)) (by decide : (0 : Fin 3) = rowOf (1 : Fin 9)) (by decide : (1 : Fin 3) = colOf (1 : Fin 9))))
  · exact row_piece' (R := 9) (covScr x0 x1) 0 (of_decide_eq_true rfl) _ _ (fun s => (covOut00_at x0 x1 s).trans
      (congrArg₂ (kCov (xs x0 s) (cs x1 s)) (by decide : (0 : Fin 3) = rowOf (0 : Fin 9)) (by decide : (0 : Fin 3) = colOf (0 : Fin 9))))

/-- The same at any index of the means block. -/
theorem meanBlock_at (c : Dev nD) (i : grid0.Coords) (arg1 : Memref sig .tc .vmem S4096x3 .f32) (harg1 : arg1.IsWhole) (arg2 : Memref sig .tc .vmem S4096x9 .f32) (harg2 : arg2.IsWhole) (arg3 : Memref sig .tc .vmem S4096x3 .f32) (harg3 : arg3.IsWhole) (arg4 : Memref sig .tc .vmem S4096x9 .f32) (harg4 : arg4.IsWhole) (arg5 : Memref sig .tc .vmem S3x4096 .f32) (harg5 : arg5.IsWhole) (arg6 : Memref sig .tc .vmem S9x4096 .f32) (harg6 : arg6.IsWhole)
    (x0 : Vec Ideal S4096x3 .f32) (x1 : Vec Ideal S4096x9 .f32) (y : S4096x3.Idx) :
    out0_A_2 (F := Ideal) c i arg1 harg1 arg2 harg2 arg3 harg3 arg4 harg4 arg5 harg5 arg6 harg6 x0 x1 y = kMean (xs x0 (y 0)) (y 1) := by
  exact (congrArg (out0_A_2 (F := Ideal) c i arg1 harg1 arg2 harg2 arg3 harg3 arg4 harg4 arg5 harg5 arg6 harg6 x0 x1) (eq_ix2 y)).trans
    (meanBlock_apply c i arg1 harg1 arg2 harg2 arg3 harg3 arg4 harg4 arg5 harg5 arg6 harg6 x0 x1 (y 0) (y 1))

/-- The same at any index of the covariance block. -/
theorem covBlock_at (c : Dev nD) (i : grid0.Coords) (arg1 : Memref sig .tc .vmem S4096x3 .f32) (harg1 : arg1.IsWhole) (arg2 : Memref sig .tc .vmem S4096x9 .f32) (harg2 : arg2.IsWhole) (arg3 : Memref sig .tc .vmem S4096x3 .f32) (harg3 : arg3.IsWhole) (arg4 : Memref sig .tc .vmem S4096x9 .f32) (harg4 : arg4.IsWhole) (arg5 : Memref sig .tc .vmem S3x4096 .f32) (harg5 : arg5.IsWhole) (arg6 : Memref sig .tc .vmem S9x4096 .f32) (harg6 : arg6.IsWhole)
    (x0 : Vec Ideal S4096x3 .f32) (x1 : Vec Ideal S4096x9 .f32) (y : S4096x9.Idx) :
    out0_A_3 (F := Ideal) c i arg1 harg1 arg2 harg2 arg3 harg3 arg4 harg4 arg5 harg5 arg6 harg6 x0 x1 y = kCov (xs x0 (y 0)) (cs x1 (y 0)) (rowOf (y 1)) (colOf (y 1)) := by
  exact (congrArg (out0_A_3 (F := Ideal) c i arg1 harg1 arg2 harg2 arg3 harg3 arg4 harg4 arg5 harg5 arg6 harg6 x0 x1) (eq_ix2 y)).trans
    (covBlock_apply c i arg1 harg1 arg2 harg2 arg3 harg3 arg4 harg4 arg5 harg5 arg6 harg6 x0 x1 (y 0) (y 1))

end Cert.KernelIdeal.Rows

end
-- ==== Proof.KernelArrays.lean ====
/-
  From the blocks of one grid point to the arrays the program returns. The grid has 1024 points of 4096 samples; point
  `t` reads samples `4096 t … 4096 t + 4095` of the means and of the covariances (which a reshape in front of the
  kernel lays out nine to a row) and writes the same samples of the two outputs, so the outputs' blocks tile their
  arrays and each array ends as one function of the arguments, sample by sample: the contracted mean and the
  contracted covariance of `Cert.Contract`. A reshape after the kernel returns the covariances as 3 × 3 matrices.
-/
import proofs.«170970_j54795192762843_1_alg».proof.Proof.BlockOut
import Idealize.ShloMosaic.Lib.StableHlo.Run
import Idealize.ShloMosaic.Lib.Pipeline.Value
import Idealize.ShloMosaic.Lib.ValueIdx
import Idealize.ShloMosaic.Lib.ValueLayout
import Idealize.ShloMosaic.Lib.Tactic

set_option maxRecDepth 16384

noncomputable section

open Idealize.ShloMosaic Idealize.ShloMosaic.TcCoe Idealize.SL.Sem Idealize.ShloMosaic.ValueIdx

namespace Cert.KernelIdeal.Arrays

open Cert.KernelIdeal Cert.KernelIdeal.Gen Cert.Contract Cert.KernelIdeal.Rows
open Idealize.ShloMosaic.Pipeline (Dat)

variable (m : (ℓ : Loc nD τ sig) → Buf (Elt Ideal) ℓ) (ρ : Dev nD → PrngReg)

/-- The grid is 1024 points of 4096 samples; every window's block index at point `t` is `(t, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

theorem N_eq : cfg0.N = 1024 := N_0

/-- An index of the means array is in point `t`'s block iff its sample is one of the point's 4096. -/
theorem mem_blk2 (t : Fin cfg0.N) (i : S4194304x3.Idx) :
    i ∈ ((cfg0.win 2).blk t).view.set ↔ ∀ a : Fin 2, win0_2.index t a * S4096x3.size a ≤ (i a).val ∧ (i a).val < win0_2.index t a * S4096x3.size a + S4096x3.size a := by
  show i ∈ ((View.whole main_v1_0).slice (win0_2.rect t)).set ↔ _
  rw [View.set_slice_whole, Rect.mem_set_unit]
  exact Iff.rfl

theorem mem_blk3 (t : Fin cfg0.N) (i : S4194304x9.Idx) :
    i ∈ ((cfg0.win 3).blk t).view.set ↔ ∀ a : Fin 2, win0_3.index t a * S4096x9.size a ≤ (i a).val ∧ (i a).val < win0_3.index t a * S4096x9.size a + S4096x9.size a := by
  show i ∈ ((View.whole main_v1_1).slice (win0_3.rect t)).set ↔ _
  rw [View.set_slice_whole, Rect.mem_set_unit]
  exact Iff.rfl

/-- Every sample belongs to the point `sample / 4096`. -/
theorem cover2 (i : S4194304x3.Idx) : ∃ t : Fin cfg0.N, (cfg0.win 2).flush t = true ∧ i ∈ ((cfg0.win 2).blk t).view.set := by
  have h0 : (i 0).val < 4194304 := (i 0).isLt
  have h1 : (i 1).val < 3 := (i 1).isLt
  have hN : cfg0.N = 1024 := N_0
  refine ⟨⟨(i 0).val / 4096, by rw [hN]; omega⟩, flush0_2 _, ?_⟩
  rw [mem_blk2]
  obtain ⟨-, -, -, -, e20, e21, -, -⟩ := idx_facts ⟨(i 0).val / 4096, by rw [hN]; omega⟩
  intro a
  match a with
  | ⟨0, _⟩ => show win0_2.index _ (0 : Fin 2) * 4096 ≤ (i 0).val ∧ (i 0).val < win0_2.index _ (0 : Fin 2) * 4096 + 4096; rw [e20]; dsimp only; omega
  | ⟨1, _⟩ => show win0_2.index _ (1 : Fin 2) * 3 ≤ (i 1).val ∧ (i 1).val < win0_2.index _ (1 : Fin 2) * 3 + 3; rw [e21]; omega

theorem cover3 (i : S4194304x9.Idx) : ∃ t : Fin cfg0.N, (cfg0.win 3).flush t = true ∧ i ∈ ((cfg0.win 3).blk t).view.set := by
  have h0 : (i 0).val < 4194304 := (i 0).isLt
  have h1 : (i 1).val < 9 := (i 1).isLt
  have hN : cfg0.N = 1024 := N_0
  refine ⟨⟨(i 0).val / 4096, by rw [hN]; omega⟩, flush0_3 _, ?_⟩
  rw [mem_blk3]
  obtain ⟨-, -, -, -, -, -, e30, e31⟩ := idx_facts ⟨(i 0).val / 4096, by rw [hN]; omega⟩
  intro a
  match a with
  | ⟨0, _⟩ => show win0_3.index _ (0 : Fin 2) * 4096 ≤ (i 0).val ∧ (i 0).val < win0_3.index _ (0 : Fin 2) * 4096 + 4096; rw [e30]; dsimp only; omega
  | ⟨1, _⟩ => show win0_3.index _ (1 : Fin 2) * 9 ≤ (i 1).val ∧ (i 1).val < win0_3.index _ (1 : Fin 2) * 9 + 9; rw [e31]; omega

/-- The covariances as the region finds them: the argument re-laid nine to a row. -/
theorem cov9_eq (c : Dev nD) : (V m c main_v0 : S4194304x9.Idx → EReal)
    = shapeCast S4194304x9 (m ((c : Thread nD τ).loc main_arg1)) shapeCasts_S4194304x3x3_S4194304x9 := by
  show StableHlo.after hostOps0 (fun b => m (c, b)) (Proc.devRef .tc main_v0) = _
  after_results
  rfl

/-- Entry `(n, q)` of the re-laid array, `q = 3 a + b`, is entry `(n, a, b)` of the argument. -/
theorem cov9_apply (c : Dev nD) (n : Fin 4194304) (a b : Fin 3) (q : Fin 9) (hq : q.val = 3 * a.val + b.val) :
    (V m c main_v0 : S4194304x9.Idx → EReal) (ix2 n q)
      = (m ((c : Thread nD τ).loc main_arg1) : S4194304x3x3.Idx → EReal) (ix3 n a b) := by
  rw [cov9_eq]
  refine shapeCast_apply _ _ _ _ ?_
  show ((⟨3, ![4194304, 3, 3]⟩ : Shape).rowMajor (ix3 n a b)).val = ((⟨2, ![4194304, 9]⟩ : Shape).rowMajor (ix2 n q)).val
  rw [Shape.rowMajor_val_three, Shape.rowMajor_val_two]
  show (n.val * 3 + a.val) * 3 + b.val = n.val * 9 + q.val
  omega

/-! ## The blocks a point reads are samples of the argument arrays -/

/-- The blocks of means and covariances point `t` works on, at their literal shapes. -/
abbrev meanBlk (c : Dev nD) (t : Fin cfg0.N) : Vec Ideal S4096x3 .f32 := iblk m c 0 t
abbrev covBlk (c : Dev nD) (t : Fin cfg0.N) : Vec Ideal S4096x9 .f32 := iblk m c 1 t

/-- Sample `n` of the two argument arrays: its mean and its covariance matrix. -/
def xRow (c : Dev nD) (n : Fin 4194304) : Fin 3 → EReal :=
  fun a => (m ((c : Thread nD τ).loc main_arg0) : S4194304x3.Idx → EReal) (ix2 n a)
def cRow (c : Dev nD) (n : Fin 4194304) : Fin 3 → Fin 3 → EReal :=
  fun a b => (m ((c : Thread nD τ).loc main_arg1) : S4194304x3x3.Idx → EReal) (ix3 n a b)

/-- Sample `p` of point `t`'s block of means is sample `4096 t + p` of the array. -/
theorem xs_blk (c : Dev nD) (t : Fin cfg0.N) (p : Fin 4096) (n : Fin 4194304) (hn : n.val = t.val * 4096 + p.val) :
    xs (meanBlk m c t) p = xRow m c n := by
  obtain ⟨e00, e01, -⟩ := idx_facts t
  funext a
  unfold xs xRow
  show V m c main_arg0 (((cfg0.win 0).blk t).view.emb (ix2 p a)) = _
  rw [V_main_arg0]
  refine congrArg _ (funext fun ax => Fin.ext ?_)
  match ax with
  | ⟨0, _⟩ => show win0_0.index t (0 : Fin 2) * 4096 + 1 * p.val = n.val; omega
  | ⟨1, _⟩ => show win0_0.index t (1 : Fin 2) * 3 + 1 * a.val = a.val; omega

/-- Entry `(p, q)` of point `t`'s block of covariances is entry `(4096 t + p, q)` of the re-laid array. -/
theorem covBlk_apply (c : Dev nD) (t : Fin cfg0.N) (p : Fin 4096) (q : Fin 9) (n : Fin 4194304) (hn : n.val = t.val * 4096 + p.val) :
    covBlk m c t (ix2 p q) = (V m c main_v0 : S4194304x9.Idx → EReal) (ix2 n q) := by
  obtain ⟨-, -, e10, e11, -⟩ := idx_facts t
  show V m c main_v0 (((cfg0.win 1).blk t).view.emb (ix2 p q)) = _
  refine congrArg _ (funext fun ax => Fin.ext ?_)
  match ax with
  | ⟨0, _⟩ => show win0_1.index t (0 : Fin 2) * 4096 + 1 * p.val = n.val; omega
  | ⟨1, _⟩ => show win0_1.index t (1 : Fin 2) * 9 + 1 * q.val = q.val; omega

/-- Sample `p` of point `t`'s block of covariances is the covariance matrix of sample `4096 t + p`. -/
theorem cs_blk (c : Dev nD) (t : Fin cfg0.N) (p : Fin 4096) (n : Fin 4194304) (hn : n.val = t.val * 4096 + p.val) :
    cs (covBlk m c t) p = cRow m c n := by
  funext a b
  unfold cs cRow
  exact (covBlk_apply m c t p _ n hn).trans (cov9_apply m c n a b _ rfl)

/-! ## The arrays the region leaves -/

/-- The contracted means, and the contracted covariances nine to a row. -/
def outMean (c : Dev nD) : S4194304x3.Idx → Elt Ideal .f32 := fun y => kMean (xRow m c (y 0)) (y 1)
def outCov9 (c : Dev nD) : S4194304x9.Idx → Elt Ideal .f32 :=
  fun y => kCov (xRow m c (y 0)) (cRow m c (y 0)) (rowOf (y 1)) (colOf (y 1))

/-- What point `t` writes back to the means is block `t` of `outMean`. -/
theorem flushedMean (c : Dev nD) (t : Fin cfg0.N) :
    (dats m 0 c).flushed 2 t = ((cfg0.win 2).blk t).view.read (Elt Ideal) (outMean m c) := by
  show (cfg0.win 2).cut (grid0.coords t) ((dats m 0 c).after 2 t) = _
  rw [after0_2]
  unfold outsAt0
  dsimp only
  obtain ⟨-, -, -, -, e20, e21, -, -⟩ := idx_facts t
  have hN : cfg0.N = 1024 := N_0
  have ht : t.val < 1024 := hN ▸ t.isLt
  funext y
  show out0_A_2 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (meanBlk m c t) (covBlk m c t) y
    = outMean m c (((cfg0.win 2).blk t).view.emb y)
  have hy0 : (y 0).val < 4096 := (y 0).isLt
  refine (meanBlock_at c (grid0.coords t) (ms0_0 t) (hs0_0 t) (ms0_1 t) (hs0_1 t) (ms0_2 t) (hs0_2 t) (ms0_3 t) (hs0_3 t) scM0_0 (Memref.isWhole_whole _) scM0_1 (Memref.isWhole_whole _) (meanBlk m c t) (covBlk m c t) y).trans ?_
  rw [xs_blk m c t (y 0) ⟨t.val * 4096 + (y 0).val, by omega⟩ rfl]
  unfold outMean
  have e0 : (((cfg0.win 2).blk t).view.emb y) 0 = (⟨t.val * 4096 + (y 0).val, by omega⟩ : Fin 4194304) :=
    Fin.ext (by show win0_2.index t (0 : Fin 2) * 4096 + 1 * (y 0).val = t.val * 4096 + (y 0).val; omega)
  have e1 : (((cfg0.win 2).blk t).view.emb y) 1 = y 1 :=
    Fin.ext (by show win0_2.index t (1 : Fin 2) * 3 + 1 * (y 1).val = (y 1).val; omega)
  rw [e0, e1]

/-- What point `t` writes back to the covariances is block `t` of `outCov9`. -/
theorem flushedCov (c : Dev nD) (t : Fin cfg0.N) :
    (dats m 0 c).flushed 3 t = ((cfg0.win 3).blk t).view.read (Elt Ideal) (outCov9 m c) := by
  show (cfg0.win 3).cut (grid0.coords t) ((dats m 0 c).after 3 t) = _
  rw [after0_3]
  unfold outsAt0
  dsimp only
  obtain ⟨-, -, -, -, -, -, e30, e31⟩ := idx_facts t
  have hN : cfg0.N = 1024 := N_0
  have ht : t.val < 1024 := hN ▸ t.isLt
  funext y
  show out0_A_3 (F := Ideal) c (grid0.coords t) (ms0_0 t) (hs0_0 t) (ms0_1 t) (hs0_1 t) (ms0_2 t) (hs0_2 t) (ms0_3 t) (hs0_3 t) scM0_0 (Memref.isWhole_whole _) scM0_1 (Memref.isWhole_whole _) (meanBlk m c t) (covBlk m c t) y
    = outCov9 m c (((cfg0.win 3).blk t).view.emb y)
  have hy0 : (y 0).val < 4096 := (y 0).isLt
  refine (covBlock_at c (grid0.coords t) (ms0_0 t) (hs0_0 t) (ms0_1 t) (hs0_1 t) (ms0_2 t) (hs0_2 t) (ms0_3 t) (hs0_3 t) scM0_0 (Memref.isWhole_whole _) scM0_1 (Memref.isWhole_whole _) (meanBlk m c t) (covBlk m c t) y).trans ?_
  rw [xs_blk m c t (y 0) ⟨t.val * 4096 + (y 0).val, by omega⟩ rfl, cs_blk m c t (y 0) ⟨t.val * 4096 + (y 0).val, by omega⟩ rfl]
  unfold outCov9
  have e0 : (((cfg0.win 3).blk t).view.emb y) 0 = (⟨t.val * 4096 + (y 0).val, by omega⟩ : Fin 4194304) :=
    Fin.ext (by show win0_3.index t (0 : Fin 2) * 4096 + 1 * (y 0).val = t.val * 4096 + (y 0).val; omega)
  have e1 : (((cfg0.win 3).blk t).view.emb y) 1 = y 1 :=
    Fin.ext (by show win0_3.index t (1 : Fin 2) * 9 + 1 * (y 1).val = (y 1).val; omega)
  rw [e0, e1]

/-- After the last point the means array holds `outMean` and the covariance array `outCov9`. -/
theorem finalMean (c : Dev nD) : (dats m 0 c).arrAt 2 cfg0.N = outMean m c :=
  (dats m 0 c).arrAt_eq_of_cover 2 (outMean m c) (fun t _ => flushedMean m c t) (cover2)
theorem finalCov9 (c : Dev nD) : (dats m 0 c).arrAt 3 cfg0.N = outCov9 m c :=
  (dats m 0 c).arrAt_eq_of_cover 3 (outCov9 m c) (fun t _ => flushedCov m c t) (cover3)

/-! ## The arrays the program returns, and its run -/

/-- The contracted covariances as returned: the nine-to-a-row array re-laid as 3 × 3 matrices. -/
def outCov (c : Dev nD) : S4194304x3x3.Idx → Elt Ideal .f32 :=
  shapeCast S4194304x3x3 (outCov9 m c) shapeCasts_S4194304x9_S4194304x3x3

theorem rowOf_mk (a b : Fin 3) (h : 3 * a.val + b.val < 9) : rowOf ⟨3 * a.val + b.val, h⟩ = a :=
  Fin.ext (by show (3 * a.val + b.val) / 3 = a.val; have := b.isLt; omega)
theorem colOf_mk (a b : Fin 3) (h : 3 * a.val + b.val < 9) : colOf ⟨3 * a.val + b.val, h⟩ = b :=
  Fin.ext (by show (3 * a.val + b.val) % 3 = b.val; have := b.isLt; omega)

/-- Coordinate `k` of sample `n`'s returned mean. -/
theorem outMean_apply (c : Dev nD) (n : Fin 4194304) (k : Fin 3) :
    outMean m c (ix2 n k) = kMean (xRow m c n) k := rfl

/-- Entry `(a, b)` of sample `n`'s returned covariance. -/
theorem outCov_apply (c : Dev nD) (n : Fin 4194304) (a b : Fin 3) :
    outCov m c (ix3 n a b) = kCov (xRow m c n) (cRow m c n) a b := by
  have ha := a.isLt
  have hb := b.isLt
  have hq : 3 * a.val + b.val < 9 := by omega
  unfold outCov
  refine (shapeCast_apply _ _ (ix3 n a b) (ix2 n (⟨3 * a.val + b.val, hq⟩ : Fin 9)) ?_).trans ?_
  · show ((⟨2, ![4194304, 9]⟩ : Shape).rowMajor (ix2 n (⟨3 * a.val + b.val, hq⟩ : Fin 9))).val
      = ((⟨3, ![4194304, 3, 3]⟩ : Shape).rowMajor (ix3 n a b)).val
    rw [Shape.rowMajor_val_two, Shape.rowMajor_val_three]
    show n.val * 9 + (3 * a.val + b.val) = (n.val * 3 + a.val) * 3 + b.val
    omega
  · show kCov (xRow m c n) (cRow m c n) (rowOf ⟨3 * a.val + b.val, hq⟩) (colOf ⟨3 * a.val + b.val, hq⟩) = _
    rw [rowOf_mk, colOf_mk]

/-- The line after the kernel re-lays the covariance array: its result is `outCov`. -/
theorem tailCov (c : Dev nD) :
    Pipeline.afterTail₀ cfgs (dats m) 0 (V0 m) [hostOps1] c main_v2 = outCov m c := by
  unfold Pipeline.afterTail₀
  show StableHlo.after hostOps1 _ (Proc.devRef .tc main_v2) = _
  after_results
  funext i
  show shapeCast S4194304x3x3 (Pipeline.withArrays (cfgs 0).spec c (V0 m c) (fun w => (dats m 0 c).arrAt w (cfgs 0).N)
      (Proc.devRef .tc main_v1_1)) shapeCasts_S4194304x9_S4194304x3x3 i = outCov m c i
  unfold outCov
  rw [show Pipeline.withArrays (cfgs 0).spec c (V0 m c) (fun w => (dats m 0 c).arrAt w (cfgs 0).N) (Proc.devRef .tc main_v1_1)
      = outCov9 m c from (Pipeline.withArrays_arr spec0 launch0.win.arr_inj c _ _ 3).trans (finalCov9 m c)]

/-- The program's run, read: both result arrays at their functions of the arguments, the arguments unchanged. -/
theorem run : θ_run defs (onTc (τ := τ) (main (F := Ideal))) ⟨m, fun _ => 0, ρ⟩ fun r => ∀ c : Dev nD,
      r.2.mem ((c : Thread nD τ).loc main_v1_0) = outMean m c
      ∧ r.2.mem ((c : Thread nD τ).loc main_v2) = outCov m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).1 2).trans (finalMean m c),
      ((h c).2 main_v2 (Pipeline.mem_restRefs_of main_v2 (by decide) (by decide))).trans (tailCov m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Arrays

end
-- ==== Proof.lean ====
/-
  The scene contraction of Gaussian samples, kernel against reference, over the extended reals.

  Each of the 4,194,304 samples is a mean `x ∈ ℝ³` and a covariance `c ∈ ℝ³ˣ³`. With `r = ‖x‖` the contraction maps the
  mean to itself inside the unit ball and to `(2 - 1/r) · x / r` outside, and the covariance to itself inside and to
  `J c Jᵀ` outside, `J` the Jacobian of `y ↦ (2 - 1/‖y‖) · y / ‖y‖` at `x`.

  The reference obtains `J` by reverse-mode differentiation and forms `J c Jᵀ` by two contractions. The kernel uses
  the closed form `J = a·I + b·x xᵀ` with `a = 2/r - 1/r²`, `b = 2/r⁴ - 2/r³`, expanded to
  `a² c + a b (v xᵀ + x wᵀ) + b² s · x xᵀ` with `v = c x`, `w = cᵀ x`, `s = x · v`. On finite inputs the two agree:
  inside the ball both select the untouched entry (the other branch, which divides by `r`, is never read, so its
  value at `r = 0` does not matter); outside, `r ≥ 1` is a nonzero real, every quantity is real, and the identity is
  one of the field ℝ (Proof/RowAlgebra.lean). Finiteness is needed: over the extended reals the expansion uses
  distributivity, which fails at infinite entries.

  The pieces: Proof/RowForms.lean writes both programs' per-sample arithmetic; Proof/BlockRows.lean, BlockOut.lean and
  KernelArrays.lean read the kernel's result arrays, sample by sample, as the kernel's form of the arguments;
  Proof/RefRows.lean reads the reference's result arrays as the reference's form; Proof/FiniteEntries.lean turns the
  precondition into real entries. Here the kernel's arrays are taken as the common results and the reference's are
  shown equal to them entry by entry.
-/
import proofs.«170970_j54795192762843_1_alg».proof.Defs
import proofs.«170970_j54795192762843_1_alg».proof.Proof.Gen.Kernel
import proofs.«170970_j54795192762843_1_alg».proof.Proof.Gen.Kernel.Skeleton
import proofs.«170970_j54795192762843_1_alg».proof.Proof.Gen.Kernel.Launch
import proofs.«170970_j54795192762843_1_alg».proof.Proof.Gen.Kernel.Points
import proofs.«170970_j54795192762843_1_alg».proof.Proof.Gen.Kernel.Frame
import proofs.«170970_j54795192762843_1_alg».proof.Proof.Gen.KernelIdeal
import proofs.«170970_j54795192762843_1_alg».proof.Proof.Gen.KernelIdeal.Skeleton
import proofs.«170970_j54795192762843_1_alg».proof.Proof.Gen.KernelIdeal.Launch
import proofs.«170970_j54795192762843_1_alg».proof.Proof.Gen.KernelIdeal.Points
import proofs.«170970_j54795192762843_1_alg».proof.Proof.Gen.KernelIdeal.Frame
import proofs.«170970_j54795192762843_1_alg».proof.Proof.Gen.ReferenceIdeal
import proofs.«170970_j54795192762843_1_alg».proof.Proof.Gen.Pre_finite_inputs
import proofs.«170970_j54795192762843_1_alg».proof.Proof.Gen.ReferenceIdeal.Run
import proofs.«170970_j54795192762843_1_alg».proof.Proof.Gen.ReferenceIdeal.Read
import proofs.«170970_j54795192762843_1_alg».proof.Proof.RowAlgebra
import proofs.«170970_j54795192762843_1_alg».proof.Proof.RefRows
import proofs.«170970_j54795192762843_1_alg».proof.Proof.FiniteEntries
import proofs.«170970_j54795192762843_1_alg».proof.Proof.KernelArrays
import Idealize.ShloMosaic.Adequacy
import Idealize.ShloMosaic.Init

noncomputable section

namespace Cert.Proof

open Idealize.ShloMosaic Idealize.ShloMosaic.TcCoe Idealize.SL.Sem Idealize.ShloMosaic.ValueIdx
open Cert.Contract Cert.KernelIdeal.Arrays

/-! ## The three runs -/

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-! ## The reference's arrays are the kernel's -/

section Agree

variable (m : (ℓ : Loc Cert.KernelIdeal.nD Cert.KernelIdeal.τ Cert.KernelIdeal.sig) → Buf (Elt Ideal) ℓ)
  (c : Dev Cert.KernelIdeal.nD)
  (hpre : Cert.Pre_finite_inputs.fn (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) = fun _ => 1#1)

include hpre

/-- A finite sample's mean is three reals and its covariance nine. -/
theorem sample_real (n : Fin 4194304) :
    ∃ (x : Fin 3 → ℝ) (k : Fin 3 → Fin 3 → ℝ),
      xRow m c n = (fun a => (x a : EReal)) ∧ cRow m c n = (fun a b => (k a b : EReal)) := by
  obtain ⟨hx, hc⟩ := Cert.Contract.Finite.entries_real _ _ hpre
  exact ⟨fun a => (hx (ix2 n a)).choose, fun a b => (hc (ix3 n a b)).choose,
    funext fun a => (hx (ix2 n a)).choose_spec, funext fun a => funext fun b => (hc (ix3 n a b)).choose_spec⟩

/-- The reference's contracted means are the kernel's. -/
theorem means_agree :
    Cert.ReferenceIdeal.Read.val_main_v11 (F := Ideal)
      (m ((c.tc : Thread Cert.KernelIdeal.nD Cert.KernelIdeal.τ).loc Cert.KernelIdeal.main_arg0)) = outMean m c := by
  funext i
  obtain ⟨n, k, rfl⟩ : ∃ (n : Fin 4194304) (k : Fin 3), i = ix2 n k := ⟨i 0, i 1, eq_ix2 i⟩
  obtain ⟨x, _, hx, _⟩ := sample_real m c hpre n
  rw [Cert.ReferenceIdeal.RefRows.mean_apply, outMean_apply]
  show rMean (xRow m c n) k = kMean (xRow m c n) k
  rw [hx]
  exact mean_agree x k

/-- The reference's contracted covariances are the kernel's. -/
theorem covs_agree :
    Cert.ReferenceIdeal.Read.val_main_v76 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) = outCov m c := by
  funext i
  obtain ⟨n, a, b, rfl⟩ : ∃ (n : Fin 4194304) (a b : Fin 3), i = ix3 n a b := ⟨i 0, i 1, i 2, eq_ix3 i⟩
  obtain ⟨x, k, hx, hk⟩ := sample_real m c hpre n
  rw [Cert.ReferenceIdeal.RefRows.cov_apply, outCov_apply]
  show rCov (xRow m c n) (cRow m c n) a b = kCov (xRow m c n) (cRow m c n) a b
  rw [hx, hk]
  exact cov_agree x k a b

end Agree

/-! ## The claims -/

/-- From memories that agree on finite arguments both idealized programs end with the same two arrays: the kernel's
    run names them, the reference's run ends at its own terms of the same arguments, which are those arrays. -/
theorem algebraic : Cert.algebraic_KernelIdeal_ReferenceIdeal := by
  intro m ρ m' ρ' hpre hagree
  refine ⟨fun c => outMean m c, fun c => outCov m c, Cert.KernelIdeal.Arrays.run m ρ, ?_⟩
  refine (θ_run Cert.ReferenceIdeal.defs _ _).mono
    (fun r h c => ⟨(h c).1.trans ?_, (h c).2.1.trans ?_, (h c).2.2.1, (h c).2.2.2⟩)
    (Cert.ReferenceIdeal.Value.run (F := Ideal) m' ρ')
  · refine (Cert.ReferenceIdeal.Read.val_main_v11_eq (F := Ideal) _).trans ?_
    rw [(hagree c).1]
    exact means_agree m c (hpre c)
  · refine (Cert.ReferenceIdeal.Read.val_main_v76_eq (F := Ideal) m' c).trans ?_
    rw [(hagree c).1, (hagree c).2]
    exact covs_agree m c (hpre c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
